-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S27x64 : Shape := ⟨2, ![27, 64]⟩
abbrev S64x64 : Shape := ⟨2, ![64, 64]⟩
abbrev S91x64 : Shape := ⟨2, ![91, 64]⟩
abbrev S64x1 : Shape := ⟨2, ![64, 1]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S27x64 : S_.BroadcastsInDim S27x64 (![] : Fin 0 → Fin S27x64.rank)
  reducesTo_S27x64_S_d0_1 : S27x64.ReducesTo [0, 1] S_
  bcast_S_S64x64 : S_.BroadcastsInDim S64x64 (![] : Fin 0 → Fin S64x64.rank)
  reducesTo_S64x64_S_d0_1 : S64x64.ReducesTo [0, 1] S_
  bcast_S_S91x64 : S_.BroadcastsInDim S91x64 (![] : Fin 0 → Fin S91x64.rank)
  reducesTo_S91x64_S_d0_1 : S91x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S64x64 .f32) (main_arg8 : FVec F S64x1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  main_v43

def fn_part1 {F : FTy → Type} [FloatOps F] (main_arg4 : FVec F S64x64 .f32) (main_arg5 : FVec F S91x64 .f32) (main_arg6 : FVec F S64x64 .f32) (main_arg7 : FVec F S64x64 .f32) (main_arg8 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S91x64 .f32 := Host.absf main_arg5
  let main_cst_8 : FVec F S_ .f32 := constant S_ .f32 0x7F800000#32
  let main_v25 : FVec F S91x64 .f32 := broadcastInDim S91x64 ![] bcast_S_S91x64 main_cst_8
  let main_v26 : IVec S91x64 1 := cmpf .olt main_v24 main_v25
  let main_c_9 : IVec S_ 1 := constantI S_ 1 1#1
  let main_v27 : IVec S_ 1 := (fun x v => Host.reduce IntOp.andi x v reducesTo_S91x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S524288x3 .f32) (main_arg1 : FVec F S27x64 .f32) (main_arg2 : FVec F S64x64 .f32) (main_arg3 : FVec F S64x64 .f32) (main_arg4 : FVec F S64x64 .f32) (main_arg5 : FVec F S91x64 .f32) (main_arg6 : FVec F S64x64 .f32) (main_arg7 : FVec F S64x64 .f32) (main_arg8 : FVec F S64x1 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S27x64 .f32 := Host.absf main_arg1
  let main_cst_0 : FVec F S_ .f32 := constant S_ .f32 0x7F800000#32
  let main_v5 : FVec F S27x64 .f32 := broadcastInDim S27x64 ![] bcast_S_S27x64 main_cst_0
  let main_v6 : IVec S27x64 1 := cmpf .olt main_v4 main_v5
  let main_c_1 : IVec S_ 1 := constantI S_ 1 1#1
  let main_v7 : IVec S_ 1 := (fun x v => Host.reduce IntOp.andi x v reducesTo_S27x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S524288x3 : Shape := ⟨2, ![524288, 3]⟩
abbrev S27x64 : Shape := ⟨2, ![27, 64]⟩
abbrev S64x64 : Shape := ⟨2, ![64, 64]⟩
abbrev S91x64 : Shape := ⟨2, ![91, 64]⟩
abbrev S64x1 : Shape := ⟨2, ![64, 1]⟩
abbrev S524288x1 : Shape := ⟨2, ![524288, 1]⟩
abbrev S4096x3 : Shape := ⟨2, ![4096, 3]⟩
abbrev S4096x1 : Shape := ⟨2, ![4096, 1]⟩
abbrev S4096 : Shape := ⟨1, ![4096]⟩
abbrev S4096x27 : Shape := ⟨2, ![4096, 27]⟩
abbrev S4096x64 : Shape := ⟨2, ![4096, 64]⟩
abbrev S4096x91 : Shape := ⟨2, ![4096, 91]⟩

abbrev nBuf : Space → Nat
  | .hbm => 18
  | .vmem => 12
  | .smem => 0
  | _ => 0

abbrev bufTy : (tb : Table) → Fin (tcTables nBuf tb) → BufTy
  | .hbm, ⟨0, _⟩ => ⟨S524288x3, .f32⟩
  | .hbm, ⟨1, _⟩ => ⟨S27x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S91x64, .f32⟩
  | .hbm, ⟨6, _⟩ => ⟨S64x64, .f32⟩
  | .hbm, ⟨7, _⟩ => ⟨S64x64, .f32⟩
  | .hbm, ⟨8, _⟩ => ⟨S64x1, .f32⟩
  | .hbm, ⟨9, _⟩ => ⟨S27x64, .bf16⟩
  | .hbm, ⟨10, _⟩ => ⟨S64x64, .bf16⟩
  | .hbm, ⟨11, _⟩ => ⟨S64x64, .bf16⟩
  | .hbm, ⟨12, _⟩ => ⟨S64x64, .bf16⟩
  | .hbm, ⟨13, _⟩ => ⟨S91x64, .bf16⟩
  | .hbm, ⟨14, _⟩ => ⟨S64x64, .bf16⟩
  | .hbm, ⟨15, _⟩ => ⟨S64x64, .bf16⟩
  | .hbm, ⟨16, _⟩ => ⟨S64x1, .bf16⟩
  | .hbm, ⟨17, _⟩ => ⟨S524288x1, .f32⟩
  | .local _ .vmem, ⟨0, _⟩ => ⟨S4096x3, .f32⟩
  | .local _ .vmem, ⟨1, _⟩ => ⟨S4096x3, .f32⟩
  | .local _ .vmem, ⟨2, _⟩ => ⟨S27x64, .bf16⟩
  | .local _ .vmem, ⟨3, _⟩ => ⟨S64x64, .bf16⟩
  | .local _ .vmem, ⟨4, _⟩ => ⟨S64x64, .bf16⟩
  | .local _ .vmem, ⟨5, _⟩ => ⟨S64x64, .bf16⟩
  | .local _ .vmem, ⟨6, _⟩ => ⟨S91x64, .bf16⟩
  | .local _ .vmem, ⟨7, _⟩ => ⟨S64x64, .bf16⟩
  | .local _ .vmem, ⟨8, _⟩ => ⟨S64x64, .bf16⟩
  | .local _ .vmem, ⟨9, _⟩ => ⟨S64x1, .bf16⟩
  | .local _ .vmem, ⟨10, _⟩ => ⟨S4096x1, .f32⟩
  | .local _ .vmem, ⟨11, _⟩ => ⟨S4096x1, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S91x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S4096x3_S4096x3_0_0 : ∀ a, (![0, 0] : Fin 2 → Nat) a + S4096x3.size a ≤ S4096x3.size a
  h_S4096x3 : 0 < S4096x3.numel
  natLt_1_32 : 1 < 32
  reduces_S4096x3_S4096 : S4096x3.Reduces [1] S4096
  shapeCasts_S4096_S4096x1 : S4096.ShapeCasts S4096x1
  concatenates_S4096x3_S4096x3_S4096x3_S4096x3_S4096x3_S4096x3_S4096x3_S4096x3_S4096x3_S4096x27_d1 : Shape.Concatenates [S4096x3, S4096x3, S4096x3, S4096x3, S4096x3, S4096x3, S4096x3, S4096x3, S4096x3] S4096x27 1
  inb_S27x64_S27x64_0_0 : ∀ a, (![0, 0] : Fin 2 → Nat) a + S27x64.size a ≤ S27x64.size a
  h_S27x64 : 0 < S27x64.numel
  shapeCasts_S27x64_S27x64 : S27x64.ShapeCasts S27x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S91x64_S91x64_0_0 : ∀ a, (![0, 0] : Fin 2 → Nat) a + S91x64.size a ≤ S91x64.size a
  h_S91x64 : 0 < S91x64.numel
  shapeCasts_S91x64_S91x64 : S91x64.ShapeCasts S91x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  concatenates_S4096x64_S4096x27_S4096x91_d1 : Shape.Concatenates [S4096x64, S4096x27] S4096x91 1
  inb_S4096x1_S4096x1_0_0 : ∀ a, (![0, 0] : Fin 2 → Nat) a + S4096x1.size a ≤ S4096x1.size a
  h_S4096x1 : 0 < S4096x1.numel
  dot_S4096x27_S27x64_S4096x64_1_0_0_1_n_n_wf : DotDims.WF S4096x27 S27x64 S4096x64 [1] [0] [0] [1] [] []
  dot_S4096x64_S64x64_S4096x64_1_0_0_1_n_n_wf : DotDims.WF S4096x64 S64x64 S4096x64 [1] [0] [0] [1] [] []
  dot_S4096x91_S91x64_S4096x64_1_0_0_1_n_n_wf : DotDims.WF S4096x91 S91x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S524288x3.size a
  hwx0_0 : ∀ i : grid0.Coords, EltTy.bits .f32 = 32 ∨ (Rect.block (s := S524288x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64.size a ≤ S27x64.size a
  hwx0_1 : ∀ i : grid0.Coords, EltTy.bits .bf16 = 32 ∨ (Rect.block (s := S27x64) S27x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S91x64.size a ≤ S91x64.size a
  hwx0_5 : ∀ i : grid0.Coords, EltTy.bits .bf16 = 32 ∨ (Rect.block (s := S91x64) S91x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .bf16 = 32 ∨ (Rect.block (s := S64x1) S64x1.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x1.size a ≤ S524288x1.size a
  hwx0_9 : ∀ i : grid0.Coords, EltTy.bits .f32 = 32 ∨ (Rect.block (s := S524288x1) S4096x1.size (cc0_transform_9 i) (hinb0_9 i)).WholeWords (EltTy.packing .f32)

variable [Facts₀]

def dot_S4096x27_S27x64_S4096x64_1_0_0_1_n_n : DotDims S4096x27 S27x64 S4096x64 where
  lhsContracting := [1]
  rhsContracting := [0]
  lhsNonContracting := [0]
  rhsNonContracting := [1]
  lhsBatch := []
  rhsBatch := []
  wf := dot_S4096x27_S27x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x91_S91x64_S4096x64_1_0_0_1_n_n : DotDims S4096x91 S91x64 S4096x64 where
  lhsContracting := [1]
  rhsContracting := [0]
  lhsNonContracting := [0]
  rhsNonContracting := [1]
  lhsBatch := []
  rhsBatch := []
  wf := dot_S4096x91_S91x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S27x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S91x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x3 : Shape := ⟨2, ![524288, 3]⟩
abbrev S27x64 : Shape := ⟨2, ![27, 64]⟩
abbrev S64x64 : Shape := ⟨2, ![64, 64]⟩
abbrev S91x64 : Shape := ⟨2, ![91, 64]⟩
abbrev S64x1 : Shape := ⟨2, ![64, 1]⟩
abbrev S_ : Shape := ⟨0, ![]⟩
abbrev S524288 : Shape := ⟨1, ![524288]⟩
abbrev S524288x27 : Shape := ⟨2, ![524288, 27]⟩
abbrev S524288x64 : Shape := ⟨2, ![524288, 64]⟩
abbrev S524288x91 : Shape := ⟨2, ![524288, 91]⟩
abbrev S524288x1 : Shape := ⟨2, ![524288, 1]⟩

abbrev nBuf : Space → Nat
  | .hbm => 78
  | .vmem => 0
  | .smem => 0
  | _ => 0

abbrev bufTy : (tb : Table) → Fin (tcTables nBuf tb) → BufTy
  | .hbm, ⟨0, _⟩ => ⟨S524288x3, .f32⟩
  | .hbm, ⟨1, _⟩ => ⟨S27x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S91x64, .f32⟩
  | .hbm, ⟨6, _⟩ => ⟨S64x64, .f32⟩
  | .hbm, ⟨7, _⟩ => ⟨S64x64, .f32⟩
  | .hbm, ⟨8, _⟩ => ⟨S64x1, .f32⟩
  | .hbm, ⟨9, _⟩ => ⟨S_, .f32⟩
  | .hbm, ⟨10, _⟩ => ⟨S524288x3, .f32⟩
  | .hbm, ⟨11, _⟩ => ⟨S524288x3, .i1⟩
  | .hbm, ⟨12, _⟩ => ⟨S_, .f32⟩
  | .hbm, ⟨13, _⟩ => ⟨S524288x3, .f32⟩
  | .hbm, ⟨14, _⟩ => ⟨S524288x3, .i1⟩
  | .hbm, ⟨15, _⟩ => ⟨S524288x3, .i1⟩
  | .hbm, ⟨16, _⟩ => ⟨S_, .i1⟩
  | .hbm, ⟨17, _⟩ => ⟨S524288, .i1⟩
  | .hbm, ⟨18, _⟩ => ⟨S_, .f32⟩
  | .hbm, ⟨19, _⟩ => ⟨S524288x3, .f32⟩
  | .hbm, ⟨20, _⟩ => ⟨S524288x3, .f32⟩
  | .hbm, ⟨21, _⟩ => ⟨S524288x3, .f32⟩
  | .hbm, ⟨22, _⟩ => ⟨S524288x3, .f32⟩
  | .hbm, ⟨23, _⟩ => ⟨S_, .f32⟩
  | .hbm, ⟨24, _⟩ => ⟨S524288x3, .f32⟩
  | .hbm, ⟨25, _⟩ => ⟨S524288x3, .f32⟩
  | .hbm, ⟨26, _⟩ => ⟨S524288x3, .f32⟩
  | .hbm, ⟨27, _⟩ => ⟨S524288x3, .f32⟩
  | .hbm, ⟨28, _⟩ => ⟨S_, .f32⟩
  | .hbm, ⟨29, _⟩ => ⟨S524288x3, .f32⟩
  | .hbm, ⟨30, _⟩ => ⟨S524288x3, .f32⟩
  | .hbm, ⟨31, _⟩ => ⟨S524288x3, .f32⟩
  | .hbm, ⟨32, _⟩ => ⟨S524288x3, .f32⟩
  | .hbm, ⟨33, _⟩ => ⟨S_, .f32⟩
  | .hbm, ⟨34, _⟩ => ⟨S524288x3, .f32⟩
  | .hbm, ⟨35, _⟩ => ⟨S524288x3, .f32⟩
  | .hbm, ⟨36, _⟩ => ⟨S524288x3, .f32⟩
  | .hbm, ⟨37, _⟩ => ⟨S524288x3, .f32⟩
  | .hbm, ⟨38, _⟩ => ⟨S524288x27, .f32⟩
  | .hbm, ⟨39, _⟩ => ⟨S524288x64, .f32⟩
  | .hbm, ⟨40, _⟩ => ⟨S_, .f32⟩
  | .hbm, ⟨41, _⟩ => ⟨S524288x64, .f32⟩
  | .hbm, ⟨42, _⟩ => ⟨S524288x64, .f32⟩
  | .hbm, ⟨43, _⟩ => ⟨S524288x64, .f32⟩
  | .hbm, ⟨44, _⟩ => ⟨S_, .f32⟩
  | .hbm, ⟨45, _⟩ => ⟨S524288x64, .f32⟩
  | .hbm, ⟨46, _⟩ => ⟨S524288x64, .f32⟩
  | .hbm, ⟨47, _⟩ => ⟨S524288x64, .f32⟩
  | .hbm, ⟨48, _⟩ => ⟨S_, .f32⟩
  | .hbm, ⟨49, _⟩ => ⟨S524288x64, .f32⟩
  | .hbm, ⟨50, _⟩ => ⟨S524288x64, .f32⟩
  | .hbm, ⟨51, _⟩ => ⟨S524288x64, .f32⟩
  | .hbm, ⟨52, _⟩ => ⟨S_, .f32⟩
  | .hbm, ⟨53, _⟩ => ⟨S524288x64, .f32⟩
  | .hbm, ⟨54, _⟩ => ⟨S524288x64, .f32⟩
  | .hbm, ⟨55, _⟩ => ⟨S524288x91, .f32⟩
  | .hbm, ⟨56, _⟩ => ⟨S524288x64, .f32⟩
  | .hbm, ⟨57, _⟩ => ⟨S_, .f32⟩
  | .hbm, ⟨58, _⟩ => ⟨S524288x64, .f32⟩
  | .hbm, ⟨59, _⟩ => ⟨S524288x64, .f32⟩
  | .hbm, ⟨60, _⟩ => ⟨S524288x64, .f32⟩
  | .hbm, ⟨61, _⟩ => ⟨S_, .f32⟩
  | .hbm, ⟨62, _⟩ => ⟨S524288x64, .f32⟩
  | .hbm, ⟨63, _⟩ => ⟨S524288x64, .f32⟩
  | .hbm, ⟨64, _⟩ => ⟨S524288x64, .f32⟩
  | .hbm, ⟨65, _⟩ => ⟨S_, .f32⟩
  | .hbm, ⟨66, _⟩ => ⟨S524288x64, .f32⟩
  | .hbm, ⟨67, _⟩ => ⟨S524288x64, .f32⟩
  | .hbm, ⟨68, _⟩ => ⟨S524288x1, .f32⟩
  | .hbm, ⟨69, _⟩ => ⟨S524288x1, .f32⟩
  | .hbm, ⟨70, _⟩ => ⟨S524288x1, .i1⟩
  | .hbm, ⟨71, _⟩ => ⟨S_, .f32⟩
  | .hbm, ⟨72, _⟩ => ⟨S_, .f32⟩
  | .hbm, ⟨73, _⟩ => ⟨S524288x1, .f32⟩
  | .hbm, ⟨74, _⟩ => ⟨S524288x1, .f32⟩
  | .hbm, ⟨75, _⟩ => ⟨S_, .f32⟩
  | .hbm, ⟨76, _⟩ => ⟨S524288x1, .f32⟩
  | .hbm, ⟨77, _⟩ => ⟨S524288x1, .f32⟩
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_call1_cst : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_call2_cst : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_call3_cst : Ref sig .tc := ⟨.hbm, 52, rfl⟩
abbrev main_call3_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call4_cst : Ref sig .tc := ⟨.hbm, 57, rfl⟩
abbrev main_call4_v0 : Ref sig .tc := ⟨.hbm, 58, rfl⟩
abbrev main_v33 : Ref sig .tc := ⟨.hbm, 59, rfl⟩
abbrev main_v34 : Ref sig .tc := ⟨.hbm, 60, rfl⟩
abbrev main_call5_cst : Ref sig .tc := ⟨.hbm, 61, rfl⟩
abbrev main_call5_v0 : Ref sig .tc := ⟨.hbm, 62, rfl⟩
abbrev main_v35 : Ref sig .tc := ⟨.hbm, 63, rfl⟩
abbrev main_v36 : Ref sig .tc := ⟨.hbm, 64, rfl⟩
abbrev main_call6_cst : Ref sig .tc := ⟨.hbm, 65, rfl⟩
abbrev main_call6_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_call7_v0 : Ref sig .tc := ⟨.hbm, 72, rfl⟩
abbrev main_call7_v1 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S_S524288x3 : S_.BroadcastsInDim S524288x3 (![] : Fin 0 → Fin S524288x3.rank)
  reducesTo_S524288x3_S524288_d1 : S524288x3.ReducesTo [1] S524288
  h_S_ : 0 < S_.numel
  concatenates_S524288x3_S524288x3_S524288x3_S524288x3_S524288x3_S524288x3_S524288x3_S524288x3_S524288x3_S524288x27_d1 : Shape.Concatenates [S524288x3, S524288x3, S524288x3, S524288x3, S524288x3, S524288x3, S524288x3, S524288x3, S524288x3] S524288x27 1
  bcast_S_S524288x64 : S_.BroadcastsInDim S524288x64 (![] : Fin 0 → Fin S524288x64.rank)
  concatenates_S524288x64_S524288x27_S524288x91_d1 : Shape.Concatenates [S524288x64, S524288x27] S524288x91 1
  bcast_S524288_S524288x1_0 : S524288.BroadcastsInDim S524288x1 (![0] : Fin 1 → Fin S524288x1.rank)
  bcast_S_S524288x1 : S_.BroadcastsInDim S524288x1 (![] : Fin 0 → Fin S524288x1.rank)
  dot_S524288x27_S27x64_S524288x64_1_0_0_1_n_n_wf : DotDims.WF S524288x27 S27x64 S524288x64 [1] [0] [0] [1] [] []
  dot_S524288x64_S64x64_S524288x64_1_0_0_1_n_n_wf : DotDims.WF S524288x64 S64x64 S524288x64 [1] [0] [0] [1] [] []
  dot_S524288x91_S91x64_S524288x64_1_0_0_1_n_n_wf : DotDims.WF S524288x91 S91x64 S524288x64 [1] [0] [0] [1] [] []
  dot_S524288x64_S64x1_S524288x1_1_0_0_1_n_n_wf : DotDims.WF S524288x64 S64x1 S524288x1 [1] [0] [0] [1] [] []

variable [Facts₀]

def dot_S524288x27_S27x64_S524288x64_1_0_0_1_n_n : DotDims S524288x27 S27x64 S524288x64 where
  lhsContracting := [1]
  rhsContracting := [0]
  lhsNonContracting := [0]
  rhsNonContracting := [1]
  lhsBatch := []
  rhsBatch := []
  wf := dot_S524288x27_S27x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x91_S91x64_S524288x64_1_0_0_1_n_n : DotDims S524288x91 S91x64 S524288x64 where
  lhsContracting := [1]
  rhsContracting := [0]
  lhsNonContracting := [0]
  rhsNonContracting := [1]
  lhsBatch := []
  rhsBatch := []
  wf := dot_S524288x91_S91x64_S524288x64_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf

class Facts : Prop extends Facts₀ where

variable [Facts]
-- ==== Proof.LibNine.lean ====
/-
  A host operation that reads nine buffers (a join of nine arrays side by side) writes its function of the nine
  buffers' contents. The general statement gives the function a family indexed by `k : Fin 9` whose `k`-th member is
  the contents of the `k`-th buffer of a LIST of buffers; for a literal list of nine the family is spelt out here,
  each buffer's contents at its own name, so that what each of those buffers holds can be read on in turn.
-/
import Idealize.ShloMosaic.Lib.StableHlo.Run

noncomputable section

namespace Idealize.ShloMosaic.StableHlo

variable {nD : Nat} {τ : Topo} {sig : RefSig} {Val : EltTy → Type}

/-- The result of an operation over a literal family of nine references, with each operand's contents at its own
    reference. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

/-- The same, keyed for a simplifier pass: the result reference is not part of the key. -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

/-! A join's function puts its operands into a list of (shape, array) pairs. The two forms below hold the function back
(`id f`): its operands stay its plain arguments, each to be replaced by what it holds, and applying `f` afterwards is a
computation step. -/

/-- The nine-operand result with the function held back. -/
theorem nary9_result_held {x0 x1 x2 x3 x4 x5 x6 x7 x8 y : Ref sig .tc}
    (f : ((k : Fin 9) → ((![x0, x1, x2, x3, x4, x5, x6, x7, x8] : Fin 9 → Ref sig .tc) k).ty.Contents Val) → y.ty.Contents Val)
    (hxs hy) (F : Valuation τ sig Val) :
    (nary (τ := τ) ![x0, x1, x2, x3, x4, x5, x6, x7, x8] y f hxs hy).result F (no_index (Proc.devRef .tc y))
      = id f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

/-- A two-operand result with the function held back. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = id f (F (Proc.devRef .tc a)) (F (Proc.devRef .tc b)) :=
  binary_result a b y f ha hb hy F

end Idealize.ShloMosaic.StableHlo

end
-- ==== Proof.RunRead.lean ====
/-
  The whole-array program's run, read back.

  The program is a straight line of 69 array operations. After it has run, a buffer holds what the last operation
  that wrote it computed from what ITS operands held, and so on back to the arguments: reading a result is unwinding
  the line from the end. The unwinding is done in three stretches. The first 46 operations compute the features, the keep
  bits and four hidden layers; the next 19 join the fourth layer with the features, run four more layers and take the
  exponential, and lay out the keep bits and a zero array; the last 4 select the exponential or zero by the keep bits
  and scale. Between the stretches the arrays the next stretch reads are given by their stage functions of the
  arguments, so that the join, and then the selection, are met with their operands as names. The arguments themselves
  are never written.
-/
import proofs.«173721_j87041807221220_1_alg».proof.Proof.RefRead
import proofs.«173721_j87041807221220_1_alg».proof.Proof.LibNine
import Idealize.ShloMosaic.Lib.Pipeline.Frame

noncomputable section

namespace Cert.ReferenceIdeal.RunRead

open Cert.ReferenceIdeal Cert.ReferenceIdeal.Gen Cert.ReferenceIdeal.RunValue Cert.ReferenceIdeal.RefRead
open Idealize.ShloMosaic Idealize.ShloMosaic.TcCoe Idealize.SL.Sem Idealize.ShloMosaic.StableHlo

variable {F : FTy → Type} [FloatOps F]

/-- One pass that reads every operation's result: at its own result buffer its function of its operands' contents (a
    join's function held back, so that its operands are read on), at any other buffer what was there; then the functions
    held back are applied. -/
local macro "read_results" : tactic =>
  `(tactic| ((simp (disch := decide) only [ops, List.take_succ_cons, List.take_zero, List.drop_succ_cons, List.drop_zero,
      after_cons, after_nil,
      nullary_result', unary_result', binary_result_held, ternary_result', quaternary_result', reshape_result', nary9_result_held,
      unaryIndexed_result', binaryIndexed_result',
      nullary_result_ne', unary_result_ne', binary_result_ne', ternary_result_ne', quaternary_result_ne', reshape_result_ne',
      nary_result_ne', unaryIndexed_result_ne', binaryIndexed_result_ne']) <;> (try simp only [id])))

/-! ## The first stretch: 46 operations -/

/-- After the first stretch the fourth hidden layer's buffer holds its stage function of the points and four weights. -/
theorem front_hidden (V : Valuation τ sig (Elt F)) :
    after (List.take 46 (ops (F := F))) V (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) := by
  read_results
  rfl

/-- … the features' buffer the 27 features of the points. -/
theorem front_features (V : Valuation τ sig (Elt F)) :
    after (List.take 46 (ops (F := F))) V (Proc.devRef .tc main_v22) = val_main_v22 (F := F) (V (Proc.devRef .tc main_arg0)) := by
  read_results
  rfl

/-- … the keep bits' buffer the conjunction of the three range tests. -/
theorem front_keep (V : Valuation τ sig (Elt F)) :
    after (List.take 46 (ops (F := F))) V (Proc.devRef .tc main_v5) = val_main_v5 (F := F) (V (Proc.devRef .tc main_arg0)) := by
  read_results
  rfl

/-- … and the last four weights are as they were. -/
theorem front_weights (V : Valuation τ sig (Elt F)) :
    after (List.take 46 (ops (F := F))) V (Proc.devRef .tc main_arg5) = (V (Proc.devRef .tc main_arg5))
    ∧ after (List.take 46 (ops (F := F))) V (Proc.devRef .tc main_arg6) = (V (Proc.devRef .tc main_arg6))
    ∧ after (List.take 46 (ops (F := F))) V (Proc.devRef .tc main_arg7) = (V (Proc.devRef .tc main_arg7))
    ∧ after (List.take 46 (ops (F := F))) V (Proc.devRef .tc main_arg8) = (V (Proc.devRef .tc main_arg8)) := by
  refine ⟨?_, ?_, ?_, ?_⟩ <;> read_results

/-! ## The second stretch: 19 operations, from the contents the first leaves -/

section Second
variable (V U : Valuation τ sig (Elt F))
  (h30 : U (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)))
  (h22 : U (Proc.devRef .tc main_v22) = val_main_v22 (F := F) (V (Proc.devRef .tc main_arg0)))
  (h5 : U (Proc.devRef .tc main_v5) = val_main_v5 (F := F) (V (Proc.devRef .tc main_arg0)))
  (a5 : U (Proc.devRef .tc main_arg5) = (V (Proc.devRef .tc main_arg5))) (a6 : U (Proc.devRef .tc main_arg6) = (V (Proc.devRef .tc main_arg6)))
  (a7 : U (Proc.devRef .tc main_arg7) = (V (Proc.devRef .tc main_arg7))) (a8 : U (Proc.devRef .tc main_arg8) = (V (Proc.devRef .tc main_arg8)))
include h30 h22 a5 a6 a7 a8 in
/-- After the second stretch the exponential's buffer holds its stage function of all the arguments. -/
theorem mid_exp :
    after (List.take 19 (List.drop 46 (ops (F := F)))) U (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  read_results
  rw [h30, h22, a5, a6, a7, a8]
  rfl

include h5 in
/-- … the keep bits, laid as a column, theirs. -/
theorem mid_keep :
    after (List.take 19 (List.drop 46 (ops (F := F)))) U (Proc.devRef .tc main_v40) = val_main_v40 (F := F) (V (Proc.devRef .tc main_arg0)) := by
  read_results
  rw [h5]
  rfl

/-- … and the zero array the selection falls back to is that constant array. -/
theorem mid_zero :
    after (List.take 19 (List.drop 46 (ops (F := F)))) U (Proc.devRef .tc main_call7_v1) = val_main_call7_v1 (F := F) := by
  read_results
  rfl

end Second

/-! ## The last stretch: the selection and the scaling -/

/-- The selection's buffers are typed references whose type is read off the signature by computation: passing contents
    to and from such a buffer changes nothing. -/
theorem toBuf_result (v : (⟨S524288x1, .f32⟩ : BufTy).Contents (Elt F)) :
    (TRef.of (sig := sig) (T := ⟨S524288x1, .f32⟩) main_v41).toBuf (Val := Elt F) v = v := rfl
theorem ofBuf_keep (v : (⟨S524288x1, .i1⟩ : BufTy).Contents (Elt F)) :
    (TRef.of (sig := sig) (T := ⟨S524288x1, .i1⟩) main_v40).ofBuf (Val := Elt F) v = v := rfl
theorem ofBuf_exp (v : (⟨S524288x1, .f32⟩ : BufTy).Contents (Elt F)) :
    (TRef.of (sig := sig) (T := ⟨S524288x1, .f32⟩) main_v39).ofBuf (Val := Elt F) v = v := rfl
theorem ofBuf_zero (v : (⟨S524288x1, .f32⟩ : BufTy).Contents (Elt F)) :
    (TRef.of (sig := sig) (T := ⟨S524288x1, .f32⟩) main_call7_v1).ofBuf (Val := Elt F) v = v := rfl

/-- The last four operations, from contents in which the selection's three operands are the stage functions. -/
theorem last_result (V W : Valuation τ sig (Elt F))
    (h39 : W (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)))
    (h40 : W (Proc.devRef .tc main_v40) = val_main_v40 (F := F) (V (Proc.devRef .tc main_arg0)))
    (hz : W (Proc.devRef .tc main_call7_v1) = val_main_call7_v1 (F := F)) :
    after (List.drop 19 (List.drop 46 (ops (F := F)))) W (Proc.devRef .tc main_v43) = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  read_results
  rw [h39, h40, hz]
  rw [toBuf_result, ofBuf_keep, ofBuf_exp, ofBuf_zero]
  unfold val_main_v43 val_main_v41 val_main_v42 val_main_cst_6
  rfl

/-! ## The three stretches in a row -/

/-- After the whole line the result buffer holds the last stage function of the arguments. -/
theorem result_eq (V : Valuation τ sig (Elt F)) :
    after (ops (F := F)) V (Proc.devRef .tc main_v43) = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have hs : after (ops (F := F)) V
      = after (List.drop 19 (List.drop 46 (ops (F := F))))
          (after (List.take 19 (List.drop 46 (ops (F := F)))) (after (List.take 46 (ops (F := F))) V)) := by
    rw [← after_append, List.take_append_drop, ← after_append, List.take_append_drop]
  rw [hs]
  obtain ⟨a5, a6, a7, a8⟩ := front_weights V
  exact last_result V _
    (mid_exp V _ (front_hidden V) (front_features V) a5 a6 a7 a8)
    (mid_keep V _ (front_keep V))
    (mid_zero _)

/-- No operation writes an argument. -/
theorem kept (V : Valuation τ sig (Elt F)) :
    after (ops (F := F)) V (Proc.devRef .tc main_arg0) = (V (Proc.devRef .tc main_arg0))
    ∧ after (ops (F := F)) V (Proc.devRef .tc main_arg1) = (V (Proc.devRef .tc main_arg1))
    ∧ after (ops (F := F)) V (Proc.devRef .tc main_arg2) = (V (Proc.devRef .tc main_arg2))
    ∧ after (ops (F := F)) V (Proc.devRef .tc main_arg3) = (V (Proc.devRef .tc main_arg3))
    ∧ after (ops (F := F)) V (Proc.devRef .tc main_arg4) = (V (Proc.devRef .tc main_arg4))
    ∧ after (ops (F := F)) V (Proc.devRef .tc main_arg5) = (V (Proc.devRef .tc main_arg5))
    ∧ after (ops (F := F)) V (Proc.devRef .tc main_arg6) = (V (Proc.devRef .tc main_arg6))
    ∧ after (ops (F := F)) V (Proc.devRef .tc main_arg7) = (V (Proc.devRef .tc main_arg7))
    ∧ after (ops (F := F)) V (Proc.devRef .tc main_arg8) = (V (Proc.devRef .tc main_arg8)) := by
  refine ⟨?_, ?_, ?_, ?_, ?_, ?_, ?_, ?_, ?_⟩ <;> read_results

/-! ## The run -/

/-- On every device, for any float values, from any memory with zero counters: every weakly fair execution of the
    program terminates with its result at the last stage function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have k := kept (F := F) (launchContents m c)
      ⟨(h c main_v43).trans (result_eq (launchContents m c)),
        (h c main_arg0).trans k.1, (h c main_arg1).trans k.2.1, (h c main_arg2).trans k.2.2.1,
        (h c main_arg3).trans k.2.2.2.1, (h c main_arg4).trans k.2.2.2.2.1, (h c main_arg5).trans k.2.2.2.2.2.1,
        (h c main_arg6).trans k.2.2.2.2.2.2.1, (h c main_arg7).trans k.2.2.2.2.2.2.2.1, (h c main_arg8).trans k.2.2.2.2.2.2.2.2⟩)
    (run_seq scopedRefs_eq scopedSems_eq defs main (fun _ => ops) main_eq (fun _ => ops_sub) m ρ)

end Cert.ReferenceIdeal.RunRead

end
-- ==== Proof.LibRows.lean ====
/-
  A network that treats every row of its input alone — dense layers, entrywise maps, joining feature blocks side by
  side — can be evaluated on any band of rows cut out of the input: row `p` of the band's result is row `r` of the
  whole result as soon as row `p` of the band's input is row `r` of the whole input. The lemmas below say this for one
  operation at a time, for a band of `B` rows beside a whole of `M` rows, whatever the widths. One side is spelt
  the way a blocked program spells the operation (a product accumulated into a zero splat, a splat scalar), the other
  the way a whole-array program does (a plain product, a rank-zero constant broadcast); over the extended reals the
  two spellings are one value, and a change of float format is the identity.
-/
import Idealize.ShloMosaic.Lib.KernelVsHost
import Idealize.ShloMosaic.Lib.StackMember
import Idealize.ShloMosaic.Lib.ValueIdx
import Idealize.ShloMosaic.Lib.Pipeline.Value

noncomputable section

namespace Cert.Rows

open Idealize.ShloMosaic Idealize.ShloMosaic.ValueIdx
open scoped BigOperators

/-- A dense layer on a band: entry `(p, q)` of the band's product, accumulated into zero, is entry `(r, q)` of the
    whole product — both are `∑ k, A (r, k) * W (k, q)` — when band row `p` is row `r` and the two right factors
    agree on column `q`. The dimension numbers are any that are the plain rows-by-columns ones. -/
theorem dense_band {B M K N : Nat} {φa φb φw φv : FTy}
    (db : DotDims ⟨2, ![B, K]⟩ ⟨2, ![K, N]⟩ ⟨2, ![B, N]⟩) (hdb : db = DotDims.plain B K N)
    (d : DotDims ⟨2, ![M, K]⟩ ⟨2, ![K, N]⟩ ⟨2, ![M, N]⟩) (hd : d = DotDims.plain M K N)
    (Ab : FVec Ideal ⟨2, ![B, K]⟩ φa) (A : FVec Ideal ⟨2, ![M, K]⟩ φb)
    (Wb : FVec Ideal ⟨2, ![K, N]⟩ φw) (W : FVec Ideal ⟨2, ![K, N]⟩ φv)
    (p : Fin B) (r : Fin M) (q : Fin N)
    (hrow : ∀ k : Fin K, Ab (ix2 p k) = A (ix2 r k)) (hcol : ∀ k : Fin K, Wb (ix2 k q) = W (ix2 k q)) :
    matmul db none Ab Wb (constant ⟨2, ![B, N]⟩ .f32 0x00000000#32) (ix2 p q) = Host.dotGeneral d none A W (ix2 r q) := by
  subst hdb hd
  rw [matmul_zero_eq_dotGeneral, StackMember.dotGeneral_plain_apply, StackMember.dotGeneral_plain_apply]
  exact Finset.sum_congr rfl fun k _ => by rw [hrow k, hcol k]

/-- Clamping at zero, entry by entry: the zero is a splat scalar on one side and a broadcast rank-zero constant on the
    other, the same word. -/
theorem clamp_band {B M N : Nat} (hb : FVec Ideal ⟨2, ![B, N]⟩ .f32) (h : FVec Ideal ⟨2, ![M, N]⟩ .f32)
    (bc : (⟨0, ![]⟩ : Shape).BroadcastsInDim ⟨2, ![M, N]⟩ ![]) (p : Fin B) (r : Fin M) (q : Fin N)
    (hrow : hb (ix2 p q) = h (ix2 r q)) :
    maximumf hb (broadcast ⟨2, ![B, N]⟩ (Scalar.ofBits .f32 0x00000000#32)) (ix2 p q)
      = maximumf h (broadcastInDim ⟨2, ![M, N]⟩ ![] bc (constant ⟨0, ![]⟩ .f32 0x00000000#32)) (ix2 r q) := by
  rw [broadcastInDim_constant]
  show FloatOps.maximumf (hb (ix2 p q)) _ = FloatOps.maximumf (h (ix2 r q)) _
  rw [hrow]; rfl

/-- Scaling by a constant, entry by entry, the constant given by its word. -/
theorem scale_band {B M N : Nat} (w : BitVec 32) (ub : FVec Ideal ⟨2, ![B, N]⟩ .f32) (u : FVec Ideal ⟨2, ![M, N]⟩ .f32)
    (bc : (⟨0, ![]⟩ : Shape).BroadcastsInDim ⟨2, ![M, N]⟩ ![]) (p : Fin B) (r : Fin M) (q : Fin N)
    (hrow : ub (ix2 p q) = u (ix2 r q)) :
    mulf ub (broadcast ⟨2, ![B, N]⟩ (Scalar.ofBits .f32 w)) (ix2 p q)
      = mulf u (broadcastInDim ⟨2, ![M, N]⟩ ![] bc (constant ⟨0, ![]⟩ .f32 w)) (ix2 r q) := by
  rw [broadcastInDim_constant]
  show FloatOps.mulf (ub (ix2 p q)) _ = FloatOps.mulf (u (ix2 r q)) _
  rw [hrow]; rfl

/-- The sine, entry by entry: one function on the extended reals under both of its names. -/
theorem sin_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    sin ub (ix2 p q) = Host.sin u (ix2 r q) := by
  show FloatOps.sin (ub (ix2 p q)) = FloatOps.hostUnary .sin (u (ix2 r q))
  rw [hrow]; rfl

/-- The cosine, likewise. -/
theorem cos_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    cos ub (ix2 p q) = Host.cos u (ix2 r q) := by
  show FloatOps.cos (ub (ix2 p q)) = FloatOps.hostUnary .cos (u (ix2 r q))
  rw [hrow]; rfl

/-- The exponential, likewise. -/
theorem exp_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    exp ub (ix2 p q) = Host.exp u (ix2 r q) := by
  show FloatOps.exp (ub (ix2 p q)) = FloatOps.hostUnary .exp (u (ix2 r q))
  rw [hrow]; rfl

/-- The test "strictly between two constants", entry by entry, as a bit: the same comparison of the same numbers. -/
theorem between_band {B M N : Nat} (lo hi : BitVec 32) (xb : FVec Ideal ⟨2, ![B, N]⟩ .f32) (x : FVec Ideal ⟨2, ![M, N]⟩ .f32)
    (bc : (⟨0, ![]⟩ : Shape).BroadcastsInDim ⟨2, ![M, N]⟩ ![]) (p : Fin B) (r : Fin M) (q : Fin N)
    (hrow : xb (ix2 p q) = x (ix2 r q)) :
    andi (cmpf .ogt xb (broadcast ⟨2, ![B, N]⟩ (Scalar.ofBits .f32 lo))) (cmpf .olt xb (broadcast ⟨2, ![B, N]⟩ (Scalar.ofBits .f32 hi)))
        (ix2 p q)
      = andi (cmpf .ogt x (broadcastInDim ⟨2, ![M, N]⟩ ![] bc (constant ⟨0, ![]⟩ .f32 lo)))
          (cmpf .olt x (broadcastInDim ⟨2, ![M, N]⟩ ![] bc (constant ⟨0, ![]⟩ .f32 hi))) (ix2 r q) := by
  rw [broadcastInDim_constant, broadcastInDim_constant]
  show IntOp.andi (FloatOps.cmpf .ogt (xb (ix2 p q)) _) (FloatOps.cmpf .olt (xb (ix2 p q)) _)
    = IntOp.andi (FloatOps.cmpf .ogt (x (ix2 r q)) _) (FloatOps.cmpf .olt (x (ix2 r q)) _)
  rw [hrow]; rfl

/-- Two feature blocks joined side by side: a row of the joint is the row of the first followed by the row of the second. -/
theorem join2_band {B M n₁ n₂ n : Nat} (ab : FVec Ideal ⟨2, ![B, n₁]⟩ .f32) (bb : FVec Ideal ⟨2, ![B, n₂]⟩ .f32)
    (a : FVec Ideal ⟨2, ![M, n₁]⟩ .f32) (b : FVec Ideal ⟨2, ![M, n₂]⟩ .f32)
    (hcb : Shape.Concatenates [⟨2, ![B, n₁]⟩, ⟨2, ![B, n₂]⟩] ⟨2, ![B, n]⟩ 1)
    (hc : Shape.Concatenates [⟨2, ![M, n₁]⟩, ⟨2, ![M, n₂]⟩] ⟨2, ![M, n]⟩ 1)
    (hn : n₁ + n₂ = n) (p : Fin B) (r : Fin M) (j : Fin n)
    (h₁ : ∀ k : Fin n₁, ab (ix2 p k) = a (ix2 r k)) (h₂ : ∀ k : Fin n₂, bb (ix2 p k) = b (ix2 r k)) :
    concatenate ⟨2, ![B, n]⟩ 1 [⟨⟨2, ![B, n₁]⟩, ab⟩, ⟨⟨2, ![B, n₂]⟩, bb⟩] hcb (ix2 p j)
      = concatenate ⟨2, ![M, n]⟩ 1 [⟨⟨2, ![M, n₁]⟩, a⟩, ⟨⟨2, ![M, n₂]⟩, b⟩] hc (ix2 r j) := by
  by_cases hj : j.val < n₁
  · rw [concatenate_pair_apply_left 1 ab bb hcb (ix2 p j) rfl (ix2 p ⟨j.val, hj⟩)
        (fun b => by match b with | ⟨0, _⟩ => rfl | ⟨1, _⟩ => rfl),
      concatenate_pair_apply_left 1 a b hc (ix2 r j) rfl (ix2 r ⟨j.val, hj⟩)
        (fun b => by match b with | ⟨0, _⟩ => rfl | ⟨1, _⟩ => rfl)]
    exact h₁ _
  · have hj2 : j.val - n₁ < n₂ := by have := j.isLt; omega
    rw [concatenate_pair_apply_right 1 ab bb hcb (ix2 p j) rfl rfl (ix2 p ⟨j.val - n₁, hj2⟩)
        (fun b hb => by match b with | ⟨0, _⟩ => rfl | ⟨1, _⟩ => exact absurd rfl hb)
        (by show (j.val - n₁) + n₁ = j.val; omega),
      concatenate_pair_apply_right 1 a b hc (ix2 r j) rfl rfl (ix2 r ⟨j.val - n₁, hj2⟩)
        (fun b hb => by match b with | ⟨0, _⟩ => rfl | ⟨1, _⟩ => exact absurd rfl hb)
        (by show (j.val - n₁) + n₁ = j.val; omega)]
    exact h₂ _

end Cert.Rows

end
-- ==== Proof.LibJoin.lean ====
/-
  Nine feature blocks of one width joined side by side: column `j` of the joint lies in block `j / w`, at that block's
  column `j % w`. So a row of the joint is made of the same row of each block, and two joints — of a band's blocks and
  of the whole's blocks — agree on a row as soon as the blocks do, one by one.
-/
import Idealize.ShloMosaic.Lib.ValueIdx
import Idealize.ShloMosaic.Lib.Pipeline.Value

noncomputable section

namespace Cert.Rows

open Idealize.ShloMosaic Idealize.ShloMosaic.ValueIdx

/-- Block `n` of nine. -/
def pick9 {α : Type} (a0 a1 a2 a3 a4 a5 a6 a7 a8 : α) : Fin 9 → α
  | ⟨0, _⟩ => a0 | ⟨1, _⟩ => a1 | ⟨2, _⟩ => a2 | ⟨3, _⟩ => a3 | ⟨4, _⟩ => a4
  | ⟨5, _⟩ => a5 | ⟨6, _⟩ => a6 | ⟨7, _⟩ => a7 | ⟨8, _⟩ => a8
  | ⟨_ + 9, h⟩ => absurd h (Nat.not_lt.2 (Nat.le_add_left _ _))

/-- The joint of nine blocks of width `w`, read at `(p, j)`: block `j / w` at `(p, j % w)`. -/
theorem join9_apply {R w n : Nat} (a0 a1 a2 a3 a4 a5 a6 a7 a8 : FVec Ideal ⟨2, ![R, w]⟩ .f32)
    (hc : Shape.Concatenates [⟨2, ![R, w]⟩, ⟨2, ![R, w]⟩, ⟨2, ![R, w]⟩, ⟨2, ![R, w]⟩, ⟨2, ![R, w]⟩, ⟨2, ![R, w]⟩,
      ⟨2, ![R, w]⟩, ⟨2, ![R, w]⟩, ⟨2, ![R, w]⟩] ⟨2, ![R, n]⟩ 1)
    (hw : 0 < w) (hn : 9 * w = n) (p : Fin R) (j : Fin n) :
    concatenate ⟨2, ![R, n]⟩ 1 [⟨⟨2, ![R, w]⟩, a0⟩, ⟨⟨2, ![R, w]⟩, a1⟩, ⟨⟨2, ![R, w]⟩, a2⟩, ⟨⟨2, ![R, w]⟩, a3⟩,
        ⟨⟨2, ![R, w]⟩, a4⟩, ⟨⟨2, ![R, w]⟩, a5⟩, ⟨⟨2, ![R, w]⟩, a6⟩, ⟨⟨2, ![R, w]⟩, a7⟩, ⟨⟨2, ![R, w]⟩, a8⟩] hc (ix2 p j)
      = pick9 a0 a1 a2 a3 a4 a5 a6 a7 a8 ⟨j.val / w, (Nat.div_lt_iff_lt_mul hw).2 (by have := j.isLt; omega)⟩
        (ix2 p ⟨j.val % w, Nat.mod_lt _ hw⟩) :=
  concatenate_ofFn_apply (t := ⟨2, ![R, n]⟩) (s₁ := ⟨2, ![R, w]⟩) 1 (pick9 a0 a1 a2 a3 a4 a5 a6 a7 a8) hc rfl w rfl
    (ix2 p j) _ rfl (ix2 p ⟨j.val % w, Nat.mod_lt _ hw⟩) rfl
    (fun b hb => by match b with | ⟨0, _⟩ => rfl | ⟨1, _⟩ => exact absurd rfl hb)

/-- Two joints of nine agree on a row when the blocks do. -/
theorem join9_band {B M w n : Nat} (a0 a1 a2 a3 a4 a5 a6 a7 a8 : FVec Ideal ⟨2, ![B, w]⟩ .f32)
    (b0 b1 b2 b3 b4 b5 b6 b7 b8 : FVec Ideal ⟨2, ![M, w]⟩ .f32)
    (hcb : Shape.Concatenates [⟨2, ![B, w]⟩, ⟨2, ![B, w]⟩, ⟨2, ![B, w]⟩, ⟨2, ![B, w]⟩, ⟨2, ![B, w]⟩, ⟨2, ![B, w]⟩,
      ⟨2, ![B, w]⟩, ⟨2, ![B, w]⟩, ⟨2, ![B, w]⟩] ⟨2, ![B, n]⟩ 1)
    (hc : Shape.Concatenates [⟨2, ![M, w]⟩, ⟨2, ![M, w]⟩, ⟨2, ![M, w]⟩, ⟨2, ![M, w]⟩, ⟨2, ![M, w]⟩, ⟨2, ![M, w]⟩,
      ⟨2, ![M, w]⟩, ⟨2, ![M, w]⟩, ⟨2, ![M, w]⟩] ⟨2, ![M, n]⟩ 1)
    (hw : 0 < w) (hn : 9 * w = n) (p : Fin B) (r : Fin M) (j : Fin n)
    (h0 : ∀ k : Fin w, a0 (ix2 p k) = b0 (ix2 r k)) (h1 : ∀ k : Fin w, a1 (ix2 p k) = b1 (ix2 r k))
    (h2 : ∀ k : Fin w, a2 (ix2 p k) = b2 (ix2 r k)) (h3 : ∀ k : Fin w, a3 (ix2 p k) = b3 (ix2 r k))
    (h4 : ∀ k : Fin w, a4 (ix2 p k) = b4 (ix2 r k)) (h5 : ∀ k : Fin w, a5 (ix2 p k) = b5 (ix2 r k))
    (h6 : ∀ k : Fin w, a6 (ix2 p k) = b6 (ix2 r k)) (h7 : ∀ k : Fin w, a7 (ix2 p k) = b7 (ix2 r k))
    (h8 : ∀ k : Fin w, a8 (ix2 p k) = b8 (ix2 r k)) :
    concatenate ⟨2, ![B, n]⟩ 1 [⟨⟨2, ![B, w]⟩, a0⟩, ⟨⟨2, ![B, w]⟩, a1⟩, ⟨⟨2, ![B, w]⟩, a2⟩, ⟨⟨2, ![B, w]⟩, a3⟩,
        ⟨⟨2, ![B, w]⟩, a4⟩, ⟨⟨2, ![B, w]⟩, a5⟩, ⟨⟨2, ![B, w]⟩, a6⟩, ⟨⟨2, ![B, w]⟩, a7⟩, ⟨⟨2, ![B, w]⟩, a8⟩] hcb (ix2 p j)
      = concatenate ⟨2, ![M, n]⟩ 1 [⟨⟨2, ![M, w]⟩, b0⟩, ⟨⟨2, ![M, w]⟩, b1⟩, ⟨⟨2, ![M, w]⟩, b2⟩, ⟨⟨2, ![M, w]⟩, b3⟩,
        ⟨⟨2, ![M, w]⟩, b4⟩, ⟨⟨2, ![M, w]⟩, b5⟩, ⟨⟨2, ![M, w]⟩, b6⟩, ⟨⟨2, ![M, w]⟩, b7⟩, ⟨⟨2, ![M, w]⟩, b8⟩] hc (ix2 r j) := by
  rw [join9_apply a0 a1 a2 a3 a4 a5 a6 a7 a8 hcb hw hn p j, join9_apply b0 b1 b2 b3 b4 b5 b6 b7 b8 hc hw hn r j]
  generalize (⟨j.val % w, Nat.mod_lt _ hw⟩ : Fin w) = k
  generalize hq : (⟨j.val / w, _⟩ : Fin 9) = q
  clear hq
  match q with
  | ⟨0, _⟩ => exact h0 k | ⟨1, _⟩ => exact h1 k | ⟨2, _⟩ => exact h2 k | ⟨3, _⟩ => exact h3 k | ⟨4, _⟩ => exact h4 k
  | ⟨5, _⟩ => exact h5 k | ⟨6, _⟩ => exact h6 k | ⟨7, _⟩ => exact h7 k | ⟨8, _⟩ => exact h8 k

end Cert.Rows

end
-- ==== Proof.LibKeep.lean ====
/-
  A point is kept when all three of its coordinates lie strictly inside (-1, 1). The two programs test this differently.

  One turns each coordinate's test bit into the number 0 or 1 and takes the minimum of the three numbers, starting
  from +∞: the minimum is 1 when every bit is set and 0 as soon as one is clear. It then MULTIPLIES the value by that
  number. The other takes the conjunction of the three bits, starting from `true`, and SELECTS the value where the
  conjunction holds and zero elsewhere.

  On the extended reals `e * 1 = e` and `e * 0 = 0` for every `e`, the infinities included, so the two agree for every
  value `e` and every three bits (`keep_law`). Both reductions run along the second axis of a matrix with three
  columns, whatever its number of rows.
-/
import Idealize.ShloMosaic.PureOps.Ideal.Laws
import Idealize.ShloMosaic.Lib.ValueIdx
import Idealize.ShloMosaic.Lib.ValueIdxRank1
import Idealize.ShloMosaic.Lib.KernelVsHost

noncomputable section

namespace Cert.Keep

open Idealize.ShloMosaic Idealize.ShloMosaic.ValueIdx
open scoped BigOperators

/-- A fold of a commutative, associative operation over the three coordinates of an axis of size three. -/
theorem fold_fin3 {α : Type} (op : α → α → α) [Std.Commutative op] [Std.Associative op] (init : α) (f : Fin 3 → α) :
    (Finset.univ : Finset (Fin 3)).fold op init f = op (f 0) (op (f 1) (op (f 2) init)) := by
  have hu : (Finset.univ : Finset (Fin 3)) = insert 0 (insert 1 {2}) := by decide
  rw [hu, Finset.fold_insert (by decide), Finset.fold_insert (by decide), Finset.fold_singleton]

/-- Over row `p`, the index with coordinate `k` inserted on the second axis is `(p, k)`. -/
theorem lift_row {B : Nat} (hred : (⟨2, ![B, 3]⟩ : Shape).Reduces [1] ⟨1, ![B]⟩) (p : Fin B) (k : Fin 3) :
    hred.lift (ix1 p) k = ix2 p k := by
  funext c
  match c with
  | ⟨0, _⟩ => exact Fin.ext rfl
  | ⟨1, _⟩ => exact Fin.ext rfl

/-- A minimum reduction over one axis, at the ideal values: the fold of `min` over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The kernel's side: the minimum, from +∞, of the three bits of row `p` read as numbers. -/
theorem kernel_min {B : Nat} (bb : IVec ⟨2, ![B, 3]⟩ 1) (h32 : 1 < 32)
    (hred : (⟨2, ![B, 3]⟩ : Shape).Reduces [1] ⟨1, ![B]⟩) (hφ : FKind.Formats .f32)
    (hacc : (0x7F800000#32 : BitVec FTy.f32.bits) = FKind.minimumf.neutral .f32 hφ) (p : Fin B) :
    (multiReduction (F := Ideal) .minimumf [1] ⟨1, ![B]⟩ (sitofp .f32 (extui 32 bb h32)) 0x7F800000#32 hred hφ hacc
          (ix1 p) : EReal)
      = min ((((bb (ix2 p 0)).toNat : ℝ) : EReal)) (min ((((bb (ix2 p 1)).toNat : ℝ) : EReal))
          (min ((((bb (ix2 p 2)).toNat : ℝ) : EReal)) ⊤)) := by
  refine (multiReduction_minimumf_single _ _ hred hφ hacc (ix1 p)).trans ?_
  refine (fold_fin3 (α := EReal) min _ _).trans ?_
  have htop : (FloatOps.ofBits (F := Ideal) .f32 0x7F800000#32 : EReal) = ⊤ := by
    simp [Ideal.ofBits, Ideal.ieee]
  have hk : ∀ k : Fin 3, ((sitofp (F := Ideal) .f32 (extui 32 bb h32)) ∘ hred.lift (ix1 p)) k
      = (((bb (ix2 p k)).toNat : ℝ) : EReal) := by
    intro k
    show (sitofp (F := Ideal) .f32 (extui 32 bb h32)) (hred.lift (ix1 p) k) = _
    rw [lift_row, sitofp_extui_eq_uitofp]
    rfl
  rw [htop]
  exact congrArg₂ min (hk 0) (congrArg₂ min (hk 1) (congrArg₂ min (hk 2) rfl))

/-- The reference's side: the conjunction, from `true`, of the three bits of row `r`. -/
theorem ref_and {M : Nat} (b : IVec ⟨2, ![M, 3]⟩ 1)
    (hTo : (⟨2, ![M, 3]⟩ : Shape).ReducesTo [1] ⟨1, ![M]⟩) (hu : 0 < (⟨0, ![]⟩ : Shape).numel) (r : Fin M) :
    Host.reduce IntOp.andi b (constantI ⟨0, ![]⟩ 1 1#1) hTo hu (ix1 r)
      = IntOp.andi (b (ix2 r 0)) (IntOp.andi (b (ix2 r 1)) (IntOp.andi (b (ix2 r 2)) 1#1)) := by
  have hred : (⟨2, ![M, 3]⟩ : Shape).Reduces [1] ⟨1, ![M]⟩ := ⟨hTo.1, Nat.one_pos, hTo.2⟩
  refine (Host.reduce_eq_fold_single IntOp.andi b _ hTo hred hu (ix1 r)).trans ?_
  refine (fold_fin3 (α := BitVec 1) IntOp.andi _ _).trans ?_
  have hk : ∀ k : Fin 3, (b ∘ hred.lift (ix1 r)) k = b (ix2 r k) := fun k => by
    show b (hred.lift (ix1 r) k) = _
    rw [lift_row]
  exact congrArg₂ IntOp.andi (hk 0) (congrArg₂ IntOp.andi (hk 1) (congrArg₂ IntOp.andi (hk 2) rfl))

/-- Every single bit is 0 or 1. -/
theorem bit_cases : ∀ x : BitVec 1, x = 0#1 ∨ x = 1#1 := by decide

/-- On three bits and a value: the value times the minimum, from +∞, of the bits read as numbers is the value where the
    conjunction, from `true`, of the bits holds, and zero where it fails. -/
theorem bits_law (x y z : BitVec 1) (e : EReal) :
    e * min (((x.toNat : ℝ) : EReal)) (min (((y.toNat : ℝ) : EReal)) (min (((z.toNat : ℝ) : EReal)) ⊤))
      = Scalar.select (IntOp.andi x (IntOp.andi y (IntOp.andi z 1#1))) e 0 := by
  rcases bit_cases x with rfl | rfl <;> rcases bit_cases y with rfl | rfl <;> rcases bit_cases z with rfl | rfl <;>
    simp [Scalar.select, IntOp.andi]

/-- The value times the minimum (from +∞) of the three test bits read as numbers, on row `p` of a matrix of bits, is
    the value selected by the conjunction (from `true`) of the three bits on row `r` of another matrix, zero where it
    fails, when the two rows hold the same bits. -/
theorem keep_law {B M : Nat} (bb : IVec ⟨2, ![B, 3]⟩ 1) (b : IVec ⟨2, ![M, 3]⟩ 1) (h32 : 1 < 32)
    (hred : (⟨2, ![B, 3]⟩ : Shape).Reduces [1] ⟨1, ![B]⟩) (hφ : FKind.Formats .f32)
    (hacc : (0x7F800000#32 : BitVec FTy.f32.bits) = FKind.minimumf.neutral .f32 hφ)
    (hTo : (⟨2, ![M, 3]⟩ : Shape).ReducesTo [1] ⟨1, ![M]⟩) (hu : 0 < (⟨0, ![]⟩ : Shape).numel)
    (p : Fin B) (r : Fin M) (hb : ∀ k : Fin 3, bb (ix2 p k) = b (ix2 r k)) (e : EReal) :
    e * (multiReduction (F := Ideal) .minimumf [1] ⟨1, ![B]⟩ (sitofp .f32 (extui 32 bb h32)) 0x7F800000#32 hred hφ hacc
          (ix1 p) : EReal)
      = Scalar.select (Host.reduce IntOp.andi b (constantI ⟨0, ![]⟩ 1 1#1) hTo hu (ix1 r)) e
          (Ideal.ofBits .f32 0x00000000#32) := by
  rw [kernel_min, ref_and, Ideal.ofBits_zero_f32, hb 0, hb 1, hb 2]
  exact bits_law _ _ _ e

end Cert.Keep

end
-- ==== Proof.RowEq.lean ====
/-
  The network, one row at a time.

  Both programs map a point `x ∈ ℝ³` to `10⁴ · keep(x) · exp(net(x))`: the point's 27 features are its coordinates and
  the sines and cosines of the coordinates scaled by 1, 2, 4, 8; `net` is eight dense layers (clamped at zero but for
  the last), the fifth fed the fourth's output joined with the features again; `keep(x)` is 1 when all coordinates
  lie strictly inside (-1, 1) and 0 otherwise. One program runs this on a band of 4096 points at a time, with the
  weights passed through a change of float format, products accumulated into zero, and `keep` as a minimum of 0/1
  numbers that multiplies the value; the other runs it on all 524288 points at once, with `keep` as a conjunction
  that selects the value or zero. Over the extended reals every step of the first, read on row `p` of a band, is the
  same step of the second read on row `r` of the whole, as soon as row `p` of the band's points is row `r` of all the
  points: this module walks the steps in order.
-/
import proofs.«173721_j87041807221220_1_alg».proof.Proof.Gen.KernelIdeal.Skeleton
import proofs.«173721_j87041807221220_1_alg».proof.Proof.RefRead
import proofs.«173721_j87041807221220_1_alg».proof.Proof.LibRows
import proofs.«173721_j87041807221220_1_alg».proof.Proof.LibJoin
import proofs.«173721_j87041807221220_1_alg».proof.Proof.LibKeep

noncomputable section

namespace Cert.Density

open Idealize.ShloMosaic Idealize.ShloMosaic.ValueIdx Cert.Rows
open Cert.KernelIdeal.Gen (k0_pay1 k0_pay2 k0_pay3 k0_pay4 k0_pay5 k0_pay6 k0_pay7 k0_pay8)

/-- Narrowing the float format is the identity on the extended reals, entry by entry. -/
theorem narrow_apply {s : Shape} (v : FVec Ideal s .f32) (h : FTy.bits .bf16 < FTy.bits .f32) (i : s.Idx) :
    truncf .bf16 v h i = v i := rfl

/-- The number-of-kept-coordinates test: the blocked program's 0/1 factor on band row `p`, times a value, is the
    whole-array program's selection of that value on row `r`. -/
theorem keep_band (xb : FVec Ideal ⟨2, ![4096, 3]⟩ .f32) (x : FVec Ideal ⟨2, ![524288, 3]⟩ .f32)
    (Eb : FVec Ideal ⟨2, ![4096, 1]⟩ .f32) (E : FVec Ideal ⟨2, ![524288, 1]⟩ .f32)
    (p : Fin 4096) (r : Fin 524288) (hx : ∀ k : Fin 3, xb (ix2 p k) = x (ix2 r k))
    (hE : Eb (ix2 p (0 : Fin 1)) = E (ix2 r (0 : Fin 1))) :
    mulf Eb (k0_pay1 (F := Ideal) xb) (ix2 p (0 : Fin 1))
      = select (Cert.ReferenceIdeal.RefRead.val_main_v40 (F := Ideal) x) E (Cert.ReferenceIdeal.RefRead.val_main_call7_v1 (F := Ideal)) (ix2 r (0 : Fin 1)) := by
  -- the right side, at the row: the conjunction of the row's bits selects `E` or zero
  have hR : select (Cert.ReferenceIdeal.RefRead.val_main_v40 (F := Ideal) x) E (Cert.ReferenceIdeal.RefRead.val_main_call7_v1 (F := Ideal)) (ix2 r (0 : Fin 1))
      = Scalar.select (Cert.ReferenceIdeal.RefRead.val_main_v5 (F := Ideal) x (ix1 r)) (E (ix2 r (0 : Fin 1))) (Ideal.ofBits .f32 0x00000000#32) := by
    show Scalar.select (Cert.ReferenceIdeal.RefRead.val_main_v40 (F := Ideal) x (ix2 r (0 : Fin 1))) _ (Cert.ReferenceIdeal.RefRead.val_main_call7_v1 (F := Ideal) (ix2 r (0 : Fin 1))) = _
    rw [Cert.ReferenceIdeal.RefRead.val_main_v40_apply, Cert.ReferenceIdeal.RefRead.val_main_call7_v1_apply]
    have e : Cert.ReferenceIdeal.RefRead.idx_main_v40 (ix2 r (0 : Fin 1)) = ix1 r := funext fun a => Fin.ext (by match a with | ⟨0, _⟩ => rfl)
    rw [e]; rfl
  -- the left side, at the row: the value times the minimum of the row's three 0/1 numbers
  have hL : mulf Eb (k0_pay1 (F := Ideal) xb) (ix2 p (0 : Fin 1))
      = Eb (ix2 p (0 : Fin 1)) * (multiReduction (F := Ideal) .minimumf [1] ⟨1, ![4096]⟩
          (sitofp .f32 (extui 32 (andi (cmpf .ogt xb (broadcast ⟨2, ![4096, 3]⟩ (Scalar.ofBits .f32 0xBF800000#32)))
            (cmpf .olt xb (broadcast ⟨2, ![4096, 3]⟩ (Scalar.ofBits .f32 0x3F800000#32)))) Cert.KernelIdeal.Facts₀.natLt_1_32))
          0x7F800000#32 Cert.KernelIdeal.Facts₀.reduces_S4096x3_S4096 (.inl rfl) rfl (ix1 p) : EReal) := by
    show FloatOps.mulf (Eb (ix2 p (0 : Fin 1))) (k0_pay1 (F := Ideal) xb (ix2 p (0 : Fin 1))) = _
    unfold k0_pay1
    rw [shapeCast_apply _ Cert.KernelIdeal.Facts₀.shapeCasts_S4096_S4096x1 (ix2 p (0 : Fin 1)) (ix1 p)
      (by rw [Shape.rowMajor_val_one, Shape.rowMajor_val_two]; show p.val = p.val * 1 + 0; omega)]
    rfl
  rw [hL, hR, hE]
  unfold Cert.ReferenceIdeal.RefRead.val_main_v5 Cert.ReferenceIdeal.RefRead.val_main_c
  refine Cert.Keep.keep_law _ (Cert.ReferenceIdeal.RefRead.val_main_v4 (F := Ideal) x) _ _ _ _ _ _ p r (fun k => ?_) _
  unfold Cert.ReferenceIdeal.RefRead.val_main_v4 Cert.ReferenceIdeal.RefRead.val_main_v1 Cert.ReferenceIdeal.RefRead.val_main_v3 Cert.ReferenceIdeal.RefRead.val_main_v0 Cert.ReferenceIdeal.RefRead.val_main_v2 Cert.ReferenceIdeal.RefRead.val_main_cst Cert.ReferenceIdeal.RefRead.val_main_cst_0
  exact between_band _ _ xb x _ p r k (hx k)

/-- Row `p` of what the blocked program computes from a band of points and its copies of the weights is row `r` of
    what the whole-array program computes from all the points and the weights, when band row `p` is point `r` and the
    copies hold the weights' values. -/
theorem block_row
    (xb : FVec Ideal ⟨2, ![4096, 3]⟩ .f32) (w0 : FVec Ideal ⟨2, ![27, 64]⟩ .bf16) (w1 w2 w3 : FVec Ideal ⟨2, ![64, 64]⟩ .bf16)
    (w4 : FVec Ideal ⟨2, ![91, 64]⟩ .bf16) (w5 w6 : FVec Ideal ⟨2, ![64, 64]⟩ .bf16) (w7 : FVec Ideal ⟨2, ![64, 1]⟩ .bf16)
    (x : FVec Ideal ⟨2, ![524288, 3]⟩ .f32) (W0 : FVec Ideal ⟨2, ![27, 64]⟩ .f32) (W1 W2 W3 : FVec Ideal ⟨2, ![64, 64]⟩ .f32)
    (W4 : FVec Ideal ⟨2, ![91, 64]⟩ .f32) (W5 W6 : FVec Ideal ⟨2, ![64, 64]⟩ .f32) (W7 : FVec Ideal ⟨2, ![64, 1]⟩ .f32)
    (p : Fin 4096) (r : Fin 524288)
    (hx : ∀ k : Fin 3, xb (ix2 p k) = x (ix2 r k))
    (h0 : ∀ i, w0 i = W0 i) (h1 : ∀ i, w1 i = W1 i) (h2 : ∀ i, w2 i = W2 i) (h3 : ∀ i, w3 i = W3 i)
    (h4 : ∀ i, w4 i = W4 i) (h5 : ∀ i, w5 i = W5 i) (h6 : ∀ i, w6 i = W6 i) (h7 : ∀ i, w7 i = W7 i) :
    k0_pay8 (F := Ideal) (k0_pay1 xb) (k0_pay2 xb) (k0_pay3 w0) (k0_pay4 w1) (k0_pay5 w2) (k0_pay6 w3) (k0_pay7 w4) w5 w6 w7
        (ix2 p (0 : Fin 1))
      = Cert.ReferenceIdeal.RefRead.val_main_v43 (F := Ideal) x W0 W1 W2 W3 W4 W5 W6 W7 (ix2 r (0 : Fin 1)) := by
  -- the 27 features of the point
  have henc : ∀ j : Fin 27, k0_pay2 (F := Ideal) xb (ix2 p j) = Cert.ReferenceIdeal.RefRead.val_main_v22 (F := Ideal) x (ix2 r j) := by
    intro j
    unfold k0_pay2
    unfold Cert.ReferenceIdeal.RefRead.val_main_v22 Cert.ReferenceIdeal.RefRead.val_main_v8 Cert.ReferenceIdeal.RefRead.val_main_v9 Cert.ReferenceIdeal.RefRead.val_main_v12 Cert.ReferenceIdeal.RefRead.val_main_v13 Cert.ReferenceIdeal.RefRead.val_main_v16 Cert.ReferenceIdeal.RefRead.val_main_v17
      Cert.ReferenceIdeal.RefRead.val_main_v20 Cert.ReferenceIdeal.RefRead.val_main_v21 Cert.ReferenceIdeal.RefRead.val_main_v7 Cert.ReferenceIdeal.RefRead.val_main_v11 Cert.ReferenceIdeal.RefRead.val_main_v15 Cert.ReferenceIdeal.RefRead.val_main_v19
      Cert.ReferenceIdeal.RefRead.val_main_v6 Cert.ReferenceIdeal.RefRead.val_main_v10 Cert.ReferenceIdeal.RefRead.val_main_v14 Cert.ReferenceIdeal.RefRead.val_main_v18
      Cert.ReferenceIdeal.RefRead.val_main_cst_1 Cert.ReferenceIdeal.RefRead.val_main_cst_2 Cert.ReferenceIdeal.RefRead.val_main_cst_3 Cert.ReferenceIdeal.RefRead.val_main_cst_4
    exact join9_band _ _ _ _ _ _ _ _ _ _ _ _ _ _ _ _ _ _ _ _ (by decide) rfl p r j hx
      (fun k => sin_band _ _ p r k (scale_band _ _ _ _ p r k (hx k)))
      (fun k => cos_band _ _ p r k (scale_band _ _ _ _ p r k (hx k)))
      (fun k => sin_band _ _ p r k (scale_band _ _ _ _ p r k (hx k)))
      (fun k => cos_band _ _ p r k (scale_band _ _ _ _ p r k (hx k)))
      (fun k => sin_band _ _ p r k (scale_band _ _ _ _ p r k (hx k)))
      (fun k => cos_band _ _ p r k (scale_band _ _ _ _ p r k (hx k)))
      (fun k => sin_band _ _ p r k (scale_band _ _ _ _ p r k (hx k)))
      (fun k => cos_band _ _ p r k (scale_band _ _ _ _ p r k (hx k)))
  -- the layers, from the output inwards
  unfold k0_pay8
  unfold Cert.ReferenceIdeal.RefRead.val_main_v43 Cert.ReferenceIdeal.RefRead.val_main_v42 Cert.ReferenceIdeal.RefRead.val_main_cst_6
  refine scale_band _ _ _ _ p r 0 ?_
  unfold Cert.ReferenceIdeal.RefRead.val_main_v41
  refine keep_band xb x _ _ p r hx ?_
  unfold Cert.ReferenceIdeal.RefRead.val_main_v39
  refine exp_band _ _ p r 0 ?_
  unfold Cert.ReferenceIdeal.RefRead.val_main_v38
  refine dense_band _ rfl _ rfl _ _ _ _ p r 0 (fun k => ?_) (fun k => by rw [shapeCast_self]; exact h7 _)
  show maximumf (F := Ideal) _ _ (ix2 p k) = _
  unfold Cert.ReferenceIdeal.RefRead.val_main_v37 Cert.ReferenceIdeal.RefRead.val_main_call6_v0 Cert.ReferenceIdeal.RefRead.val_main_call6_cst Cert.ReferenceIdeal.RefRead.val_main_v36
  refine clamp_band _ _ _ p r k (dense_band _ rfl _ rfl _ _ _ _ p r k (fun k => ?_) (fun k' => by rw [shapeCast_self]; exact h6 _))
  show maximumf (F := Ideal) _ _ (ix2 p k) = _
  unfold Cert.ReferenceIdeal.RefRead.val_main_v35 Cert.ReferenceIdeal.RefRead.val_main_call5_v0 Cert.ReferenceIdeal.RefRead.val_main_call5_cst Cert.ReferenceIdeal.RefRead.val_main_v34
  refine clamp_band _ _ _ p r k (dense_band _ rfl _ rfl _ _ _ _ p r k (fun k => ?_) (fun k' => by rw [shapeCast_self]; exact h5 _))
  show maximumf (F := Ideal) _ _ (ix2 p k) = _
  unfold Cert.ReferenceIdeal.RefRead.val_main_v33 Cert.ReferenceIdeal.RefRead.val_main_call4_v0 Cert.ReferenceIdeal.RefRead.val_main_call4_cst Cert.ReferenceIdeal.RefRead.val_main_v32
  refine clamp_band _ _ _ p r k (dense_band _ rfl _ rfl _ _ _ _ p r k (fun k => ?_) (fun k' => by unfold k0_pay7; rw [shapeCast_self]; exact h4 _))
  rw [narrow_apply]
  unfold Cert.ReferenceIdeal.RefRead.val_main_v31
  refine join2_band _ _ _ _ _ _ rfl p r k (fun k => ?_) henc
  show maximumf (F := Ideal) _ _ (ix2 p k) = _
  unfold Cert.ReferenceIdeal.RefRead.val_main_v30 Cert.ReferenceIdeal.RefRead.val_main_call3_v0 Cert.ReferenceIdeal.RefRead.val_main_call3_cst Cert.ReferenceIdeal.RefRead.val_main_v29
  refine clamp_band _ _ _ p r k (dense_band _ rfl _ rfl _ _ _ _ p r k (fun k => ?_) (fun k' => by unfold k0_pay6; rw [shapeCast_self]; exact h3 _))
  show maximumf (F := Ideal) _ _ (ix2 p k) = _
  unfold Cert.ReferenceIdeal.RefRead.val_main_v28 Cert.ReferenceIdeal.RefRead.val_main_call2_v0 Cert.ReferenceIdeal.RefRead.val_main_call2_cst Cert.ReferenceIdeal.RefRead.val_main_v27
  refine clamp_band _ _ _ p r k (dense_band _ rfl _ rfl _ _ _ _ p r k (fun k => ?_) (fun k' => by unfold k0_pay5; rw [shapeCast_self]; exact h2 _))
  show maximumf (F := Ideal) _ _ (ix2 p k) = _
  unfold Cert.ReferenceIdeal.RefRead.val_main_v26 Cert.ReferenceIdeal.RefRead.val_main_call1_v0 Cert.ReferenceIdeal.RefRead.val_main_call1_cst Cert.ReferenceIdeal.RefRead.val_main_v25
  refine clamp_band _ _ _ p r k (dense_band _ rfl _ rfl _ _ _ _ p r k (fun k => ?_) (fun k' => by unfold k0_pay4; rw [shapeCast_self]; exact h1 _))
  show maximumf (F := Ideal) _ _ (ix2 p k) = _
  unfold Cert.ReferenceIdeal.RefRead.val_main_v24 Cert.ReferenceIdeal.RefRead.val_main_call0_v0 Cert.ReferenceIdeal.RefRead.val_main_call0_cst Cert.ReferenceIdeal.RefRead.val_main_v23
  refine clamp_band _ _ _ p r k (dense_band _ rfl _ rfl _ _ _ _ p r k (fun k => henc k) (fun k' => by unfold k0_pay3; rw [shapeCast_self]; exact h0 _))

end Cert.Density

end
-- ==== Proof.Blocks.lean ====
/-
  From bands to the whole array.

  The blocked program cuts the 524288 points into 128 bands of 4096 and writes, for band `t`, the 4096 results into
  rows `4096 t … 4096 t + 4095` of its output. Row `y` of band `t`'s points is point `4096 t + y`, and every band is
  given the whole of each weight matrix (after a change of float format, which is the identity on the extended
  reals). By the row-by-row equality each band's results are therefore the matching rows of the whole-array function
  of all the points, and since the bands' rows fill the output, the output IS that function of the arguments.
-/
import proofs.«173721_j87041807221220_1_alg».proof.Proof.Gen.KernelIdeal.Value
import proofs.«173721_j87041807221220_1_alg».proof.Proof.RowEq

noncomputable section

namespace Cert.Density

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole-array function of the arguments as launched, on device `c`. -/
abbrev whole (c : Dev nD) : S524288x1.Idx → Elt Ideal .f32 :=
  Cert.ReferenceIdeal.RefRead.val_main_v43 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The offsets of a whole block are zero on both axes. -/
theorem zero_offsets : (![0, 0] : Fin 2 → Nat) = fun _ => 0 := funext fun a => by fin_cases a <;> rfl

/-- The index maps, decided once over the 128 bands: the points' window and the output's window are at block row `t`,
    column block 0, at band `t`; every weight's window is at its one block. -/
theorem band_index : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Band `t` of the points: row `y` of the band is point `4096 t + y`. -/
theorem band_apply (c : Dev nD) (t : Fin cfg0.N) (y : S4096x3.Idx) (k : S524288x3.Idx)
    (hk0 : (k 0).val = 4096 * t.val + (y 0).val) (hk1 : (k 1).val = (y 1).val) :
    (iblk m c 0 t : Vec Ideal S4096x3 .f32) y = (m ((c : Thread nD τ).loc main_arg0) : S524288x3.Idx → Elt Ideal .f32) k := by
  obtain ⟨e0, e1, -⟩ := band_index t
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * (y 0).val = (k 0).val; rw [e0, hk0]; omega
  | ⟨1, _⟩ => show win0_0.index t 1 * 3 + 1 * (y 1).val = (k 1).val; rw [e1, hk1]; omega

/-- Weight 0's window holds, at every band, the whole matrix: its copy in the narrower format is the matrix
    itself over the extended reals. -/
theorem weight0_apply (c : Dev nD) (t : Fin cfg0.N) (y : S27x64.Idx) :
    (iblk m c 1 t : Vec Ideal S27x64 .bf16) y = (m ((c : Thread nD τ).loc main_arg1) : S27x64.Idx → Elt Ideal .f32) y := by
  have e0 : win0_1.index t (0 : Fin 2) = 0 := (band_index t).2.2.2.2.1
  have e1 : win0_1.index t (1 : Fin 2) = 0 := (band_index t).2.2.2.2.2.1
  have e : @Eq (S27x64.Idx → EReal) (V m c main_v0)
      (truncf (F := Ideal) (s := S27x64) (φ := .f32) .bf16 (m ((c : Thread nD τ).loc main_arg1)) bitsLt_bf16_f32) := by
    dsimp only [Gen.V, Gen.hostOps0]; after_results
  unfold iblk
  rw [View.read_apply]
  show (V m c main_v0 : S27x64.Idx → EReal) _ = _
  rw [e]
  show (m ((c : Thread nD τ).loc main_arg1) : S27x64.Idx → EReal) _ = _
  congr 1
  funext a
  apply Fin.ext
  match a with
  | ⟨0, _⟩ => show win0_1.index t 0 * 27 + 1 * (y 0).val = (y 0).val; rw [e0]; omega
  | ⟨1, _⟩ => show win0_1.index t 1 * 64 + 1 * (y 1).val = (y 1).val; rw [e1]; omega

/-- Weight 1's window holds, at every band, the whole matrix: its copy in the narrower format is the matrix
    itself over the extended reals. -/
theorem weight1_apply (c : Dev nD) (t : Fin cfg0.N) (y : S64x64.Idx) :
    (iblk m c 2 t : Vec Ideal S64x64 .bf16) y = (m ((c : Thread nD τ).loc main_arg2) : S64x64.Idx → Elt Ideal .f32) y := by
  have e0 : win0_2.index t (0 : Fin 2) = 0 := (band_index t).2.2.2.2.2.2.1
  have e1 : win0_2.index t (1 : Fin 2) = 0 := (band_index t).2.2.2.2.2.2.2.1
  have e : @Eq (S64x64.Idx → EReal) (V m c main_v1)
      (truncf (F := Ideal) (s := S64x64) (φ := .f32) .bf16 (m ((c : Thread nD τ).loc main_arg2)) bitsLt_bf16_f32) := by
    dsimp only [Gen.V, Gen.hostOps0]; after_results
  unfold iblk
  rw [View.read_apply]
  show (V m c main_v1 : S64x64.Idx → EReal) _ = _
  rw [e]
  show (m ((c : Thread nD τ).loc main_arg2) : S64x64.Idx → EReal) _ = _
  congr 1
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- Weight 2's window holds, at every band, the whole matrix: its copy in the narrower format is the matrix
    itself over the extended reals. -/
theorem weight2_apply (c : Dev nD) (t : Fin cfg0.N) (y : S64x64.Idx) :
    (iblk m c 3 t : Vec Ideal S64x64 .bf16) y = (m ((c : Thread nD τ).loc main_arg3) : S64x64.Idx → Elt Ideal .f32) y := by
  have e0 : win0_3.index t (0 : Fin 2) = 0 := (band_index t).2.2.2.2.2.2.2.2.1
  have e1 : win0_3.index t (1 : Fin 2) = 0 := (band_index t).2.2.2.2.2.2.2.2.2.1
  have e : @Eq (S64x64.Idx → EReal) (V m c main_v2)
      (truncf (F := Ideal) (s := S64x64) (φ := .f32) .bf16 (m ((c : Thread nD τ).loc main_arg3)) bitsLt_bf16_f32) := by
    dsimp only [Gen.V, Gen.hostOps0]; after_results
  unfold iblk
  rw [View.read_apply]
  show (V m c main_v2 : S64x64.Idx → EReal) _ = _
  rw [e]
  show (m ((c : Thread nD τ).loc main_arg3) : S64x64.Idx → EReal) _ = _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- Weight 3's window holds, at every band, the whole matrix: its copy in the narrower format is the matrix
    itself over the extended reals. -/
theorem weight3_apply (c : Dev nD) (t : Fin cfg0.N) (y : S64x64.Idx) :
    (iblk m c 4 t : Vec Ideal S64x64 .bf16) y = (m ((c : Thread nD τ).loc main_arg4) : S64x64.Idx → Elt Ideal .f32) y := by
  have e0 : win0_4.index t (0 : Fin 2) = 0 := (band_index t).2.2.2.2.2.2.2.2.2.2.1
  have e1 : win0_4.index t (1 : Fin 2) = 0 := (band_index t).2.2.2.2.2.2.2.2.2.2.2.1
  have e : @Eq (S64x64.Idx → EReal) (V m c main_v3)
      (truncf (F := Ideal) (s := S64x64) (φ := .f32) .bf16 (m ((c : Thread nD τ).loc main_arg4)) bitsLt_bf16_f32) := by
    dsimp only [Gen.V, Gen.hostOps0]; after_results
  unfold iblk
  rw [View.read_apply]
  show (V m c main_v3 : S64x64.Idx → EReal) _ = _
  rw [e]
  show (m ((c : Thread nD τ).loc main_arg4) : S64x64.Idx → EReal) _ = _
  congr 1
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

/-- Weight 4's window holds, at every band, the whole matrix: its copy in the narrower format is the matrix
    itself over the extended reals. -/
theorem weight4_apply (c : Dev nD) (t : Fin cfg0.N) (y : S91x64.Idx) :
    (iblk m c 5 t : Vec Ideal S91x64 .bf16) y = (m ((c : Thread nD τ).loc main_arg5) : S91x64.Idx → Elt Ideal .f32) y := by
  have e0 : win0_5.index t (0 : Fin 2) = 0 := (band_index t).2.2.2.2.2.2.2.2.2.2.2.2.1
  have e1 : win0_5.index t (1 : Fin 2) = 0 := (band_index t).2.2.2.2.2.2.2.2.2.2.2.2.2.1
  have e : @Eq (S91x64.Idx → EReal) (V m c main_v4)
      (truncf (F := Ideal) (s := S91x64) (φ := .f32) .bf16 (m ((c : Thread nD τ).loc main_arg5)) bitsLt_bf16_f32) := by
    dsimp only [Gen.V, Gen.hostOps0]; after_results
  unfold iblk
  rw [View.read_apply]
  show (V m c main_v4 : S91x64.Idx → EReal) _ = _
  rw [e]
  show (m ((c : Thread nD τ).loc main_arg5) : S91x64.Idx → EReal) _ = _
  congr 1
  funext a
  apply Fin.ext
  match a with
  | ⟨0, _⟩ => show win0_5.index t 0 * 91 + 1 * (y 0).val = (y 0).val; rw [e0]; omega
  | ⟨1, _⟩ => show win0_5.index t 1 * 64 + 1 * (y 1).val = (y 1).val; rw [e1]; omega

/-- Weight 5's window holds, at every band, the whole matrix: its copy in the narrower format is the matrix
    itself over the extended reals. -/
theorem weight5_apply (c : Dev nD) (t : Fin cfg0.N) (y : S64x64.Idx) :
    (iblk m c 6 t : Vec Ideal S64x64 .bf16) y = (m ((c : Thread nD τ).loc main_arg6) : S64x64.Idx → Elt Ideal .f32) y := by
  have e0 : win0_6.index t (0 : Fin 2) = 0 := (band_index t).2.2.2.2.2.2.2.2.2.2.2.2.2.2.1
  have e1 : win0_6.index t (1 : Fin 2) = 0 := (band_index t).2.2.2.2.2.2.2.2.2.2.2.2.2.2.2.1
  have e : @Eq (S64x64.Idx → EReal) (V m c main_v5)
      (truncf (F := Ideal) (s := S64x64) (φ := .f32) .bf16 (m ((c : Thread nD τ).loc main_arg6)) bitsLt_bf16_f32) := by
    dsimp only [Gen.V, Gen.hostOps0]; after_results
  unfold iblk
  rw [View.read_apply]
  show (V m c main_v5 : S64x64.Idx → EReal) _ = _
  rw [e]
  show (m ((c : Thread nD τ).loc main_arg6) : S64x64.Idx → EReal) _ = _
  congr 1
  funext a
  apply Fin.ext
  match a with
  | ⟨0, _⟩ => show win0_6.index t 0 * 64 + 1 * (y 0).val = (y 0).val; rw [e0]; omega
  | ⟨1, _⟩ => show win0_6.index t 1 * 64 + 1 * (y 1).val = (y 1).val; rw [e1]; omega

/-- Weight 6's window holds, at every band, the whole matrix: its copy in the narrower format is the matrix
    itself over the extended reals. -/
theorem weight6_apply (c : Dev nD) (t : Fin cfg0.N) (y : S64x64.Idx) :
    (iblk m c 7 t : Vec Ideal S64x64 .bf16) y = (m ((c : Thread nD τ).loc main_arg7) : S64x64.Idx → Elt Ideal .f32) y := by
  have e0 : win0_7.index t (0 : Fin 2) = 0 := (band_index t).2.2.2.2.2.2.2.2.2.2.2.2.2.2.2.2.1
  have e1 : win0_7.index t (1 : Fin 2) = 0 := (band_index t).2.2.2.2.2.2.2.2.2.2.2.2.2.2.2.2.2.1
  have e : @Eq (S64x64.Idx → EReal) (V m c main_v6)
      (truncf (F := Ideal) (s := S64x64) (φ := .f32) .bf16 (m ((c : Thread nD τ).loc main_arg7)) bitsLt_bf16_f32) := by
    dsimp only [Gen.V, Gen.hostOps0]; after_results
  unfold iblk
  rw [View.read_apply]
  show (V m c main_v6 : S64x64.Idx → EReal) _ = _
  rw [e]
  show (m ((c : Thread nD τ).loc main_arg7) : S64x64.Idx → EReal) _ = _
  congr 1
  funext a
  apply Fin.ext
  match a with
  | ⟨0, _⟩ => show win0_7.index t 0 * 64 + 1 * (y 0).val = (y 0).val; rw [e0]; omega
  | ⟨1, _⟩ => show win0_7.index t 1 * 64 + 1 * (y 1).val = (y 1).val; rw [e1]; omega

/-- Weight 7's window holds, at every band, the whole matrix: its copy in the narrower format is the matrix
    itself over the extended reals. -/
theorem weight7_apply (c : Dev nD) (t : Fin cfg0.N) (y : S64x1.Idx) :
    (iblk m c 8 t : Vec Ideal S64x1 .bf16) y = (m ((c : Thread nD τ).loc main_arg8) : S64x1.Idx → Elt Ideal .f32) y := by
  have e0 : win0_8.index t (0 : Fin 2) = 0 := (band_index t).2.2.2.2.2.2.2.2.2.2.2.2.2.2.2.2.2.2.1
  have e1 : win0_8.index t (1 : Fin 2) = 0 := (band_index t).2.2.2.2.2.2.2.2.2.2.2.2.2.2.2.2.2.2.2
  have e : @Eq (S64x1.Idx → EReal) (V m c main_v7)
      (truncf (F := Ideal) (s := S64x1) (φ := .f32) .bf16 (m ((c : Thread nD τ).loc main_arg8)) bitsLt_bf16_f32) := by
    dsimp only [Gen.V, Gen.hostOps0]; after_results
  unfold iblk
  rw [View.read_apply]
  show (V m c main_v7 : S64x1.Idx → EReal) _ = _
  rw [e]
  show (m ((c : Thread nD τ).loc main_arg8) : S64x1.Idx → EReal) _ = _
  congr 1
  funext a
  apply Fin.ext
  match a with
  | ⟨0, _⟩ => show win0_8.index t 0 * 64 + 1 * (y 0).val = (y 0).val; rw [e0]; omega
  | ⟨1, _⟩ => show win0_8.index t 1 * 1 + 1 * (y 1).val = (y 1).val; rw [e1]; omega

/-- Row `p` of band `t`'s results is row `4096 t + p` of the whole-array function: the band's row `p` is that point
    and the band's weights are the weights. -/
theorem band_row (c : Dev nD) (t : Fin cfg0.N) (p : Fin 4096) (r : Fin 524288) (hr : r.val = 4096 * t.val + p.val) :
    k0_pay8 (F := Ideal) (k0_pay1 (iblk m c 0 t)) (k0_pay2 (iblk m c 0 t)) (k0_pay3 (iblk m c 1 t)) (k0_pay4 (iblk m c 2 t))
        (k0_pay5 (iblk m c 3 t)) (k0_pay6 (iblk m c 4 t)) (k0_pay7 (iblk m c 5 t)) (iblk m c 6 t) (iblk m c 7 t) (iblk m c 8 t)
        (ix2 p (0 : Fin 1))
      = whole m c (ix2 r (0 : Fin 1)) :=
  block_row (iblk m c 0 t) (iblk m c 1 t) (iblk m c 2 t) (iblk m c 3 t) (iblk m c 4 t) (iblk m c 5 t) (iblk m c 6 t)
    (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    p r (fun k => band_apply m c t (ix2 p k) (ix2 r k) hr rfl)
    (weight0_apply m c t) (weight1_apply m c t) (weight2_apply m c t) (weight3_apply m c t)
    (weight4_apply m c t) (weight5_apply m c t) (weight6_apply m c t) (weight7_apply m c t)

/-- Reading through band `t`'s block of the output: a column of 4096 results is rows `4096 t … 4096 t + 4095` of an
    array of 524288 as soon as its row `p` is the array's row `4096 t + p`, for every `p`. -/
theorem read_band_of_rows (t : Fin cfg0.N) (X : Vec Ideal S4096x1 .f32) (G : S524288x1.Idx → Elt Ideal .f32)
    (h : ∀ (p : Fin 4096) (r : Fin 524288), r.val = 4096 * t.val + p.val → X (ix2 p (0 : Fin 1)) = G (ix2 r (0 : Fin 1))) :
    (cfg0.win 9).cut (grid0.coords t) X = ((cfg0.win 9).blk t).view.read (Elt Ideal) G := by
  funext y
  have h0 : (y 0).val < 4096 := (y 0).isLt
  have h1 : (y 1).val = 0 := by have h : (y 1).val < 1 := (y 1).isLt; omega
  have ht : t.val < 128 := Nat.lt_of_lt_of_eq t.isLt N_0
  have e0 : win0_9.index t (0 : Fin 2) = t.val := (band_index t).2.2.1
  have e1 : win0_9.index t (1 : Fin 2) = 0 := (band_index t).2.2.2.1
  have hL : (win0 9).xinj (grid0.coords t) y = ix2 (⟨(y 0).val, h0⟩ : Fin 4096) (0 : Fin 1) := by
    funext a
    apply Fin.ext
    match a with
    | ⟨0, _⟩ => rfl
    | ⟨1, _⟩ => exact h1
  have hR : ((View.whole main_v8).slice ((win0 9).rect t)).emb y
      = ix2 (⟨4096 * t.val + (y 0).val, by omega⟩ : Fin 524288) (0 : Fin 1) := by
    funext a
    apply Fin.ext
    match a with
    | ⟨0, _⟩ => show win0_9.index t 0 * 4096 + 1 * (y 0).val = 4096 * t.val + (y 0).val; rw [e0]; omega
    | ⟨1, _⟩ => show win0_9.index t 1 * 1 + 1 * (y 1).val = 0; rw [e1]; omega
  rw [View.read_apply]
  show X ((win0 9).xinj (grid0.coords t) y) = G (((View.whole main_v8).slice ((win0 9).rect t)).emb y)
  rw [hL, hR]
  exact h _ _ rfl

/-- What band `t` writes back is rows `4096 t … 4096 t + 4095` of the whole-array function. -/
theorem band_flushed (c : Dev nD) (t : Fin cfg0.N) :
    (dats m 0 c).flushed 9 t = ((cfg0.win 9).blk t).view.read (Elt Ideal) (whole m c) := by
  rw [Value.flushed9]
  unfold out0_9
  rw [View.canon_unit_zero zero_offsets]
  simp only [View.ld_unit_zero (S := S4096x3) zero_offsets, View.ld_unit_zero (S := S27x64) zero_offsets,
    View.ld_unit_zero (S := S64x64) zero_offsets, View.ld_unit_zero (S := S91x64) zero_offsets,
    View.ld_unit_zero (S := S64x1) zero_offsets]
  exact read_band_of_rows t _ (whole m c) (fun p r hr => band_row m c t p r hr)

/-- An index of the output is in band `t`'s block iff each coordinate is in the block's range on its axis. -/
theorem mem_band (t : Fin cfg0.N) (i : S524288x1.Idx) :
    i ∈ ((cfg0.win 9).blk t).view.set ↔ ∀ a : Fin 2, win0_9.index t a * S4096x1.size a ≤ (i a).val
      ∧ (i a).val < win0_9.index t a * S4096x1.size a + S4096x1.size a := by
  show i ∈ ((View.whole main_v8).slice (win0_9.rect t)).set ↔ _
  rw [View.set_slice_whole, Rect.mem_set_unit]
  exact Iff.rfl

/-- The bands' blocks fill the output: row `r` lies in the block of band `r / 4096`, and every band writes back. -/
theorem bands_cover (i : S524288x1.Idx) :
    ∃ t : Fin cfg0.N, (cfg0.win 9).flush t = true ∧ i ∈ ((cfg0.win 9).blk t).view.set := by
  have hi0 : (i 0).val < 524288 := (i 0).isLt
  have hi1 : (i 1).val < 1 := (i 1).isLt
  obtain ⟨t, tv⟩ : ∃ t : Fin cfg0.N, t.val = (i 0).val / 4096 :=
    ⟨⟨(i 0).val / 4096, Nat.lt_of_lt_of_eq (by omega) N_0.symm⟩, rfl⟩
  have e0 : win0_9.index t (0 : Fin 2) = t.val := (band_index t).2.2.1
  have e1 : win0_9.index t (1 : Fin 2) = 0 := (band_index t).2.2.2.1
  refine ⟨t, flush0_9 t, ?_⟩
  rw [mem_band]
  intro a
  match a with
  | ⟨0, _⟩ =>
    show win0_9.index t (0 : Fin 2) * 4096 ≤ (i 0).val ∧ (i 0).val < win0_9.index t (0 : Fin 2) * 4096 + 4096
    rw [e0, tv]; omega
  | ⟨1, _⟩ =>
    show win0_9.index t (1 : Fin 2) * 1 ≤ (i 1).val ∧ (i 1).val < win0_9.index t (1 : Fin 2) * 1 + 1
    rw [e1]; omega

/-- So after the run the output array is the whole-array function of the arguments. -/
theorem output_eq (c : Dev nD) : (dats m 0 c).arrAt 9 cfg0.N = whole m c :=
  (dats m 0 c).arrAt_eq_of_cover 9 (whole m c) (fun t _ => band_flushed m c t) bands_cover

/-- The blocked program's run, read: its output array ends at the whole-array function of the arguments, the
    arguments unchanged. -/
theorem kernel_run : θ_run (defs (F := Ideal)) (onTc (τ := τ) (main (F := Ideal))) ⟨m, fun _ => 0, ρ⟩ fun r => ∀ c : Dev nD,
      r.2.mem ((c : Thread nD τ).loc main_v8) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  exact (θ_run defs _ _).mono (fun r h c => ⟨(h c).1.trans (output_eq m c), (h c).2⟩)
    (Cert.KernelIdeal.Value.run_blocks (F := Ideal) m ρ)

end Cert.Density

end
-- ==== Proof.lean ====
/-
  A density network evaluated point by point: both programs send each of 524288 points `x ∈ ℝ³` to
  `10⁴ · keep(x) · exp(net(x))`, where the 27 features of `x` are its coordinates with the sines and cosines of the
  coordinates scaled by 1, 2, 4 and 8, `net` is eight dense layers clamped at zero between them (the fifth fed the
  fourth's output joined with the features), and `keep(x)` is 1 when every coordinate lies strictly inside (-1, 1)
  and 0 otherwise.

  The blocked program walks the points in 128 bands of 4096, with the weights passed through a change of float
  format, each product accumulated into zero, and `keep` as the minimum of three 0/1 numbers multiplying the value.
  The whole-array program treats all points at once and selects the value or zero by the conjunction of the three
  tests. Over the extended reals a change of format is the identity, a product accumulated into zero is the product,
  `e · 1 = e` and `e · 0 = 0` for every `e` including the infinities, and every step acts on each row alone. So row
  `y` of band `t` of the first is row `4096 t + y` of the second (Proof/RowEq.lean over the general row lemmas), the
  bands fill the output (Proof/Blocks.lean), and the two results are one array. No step needs the inputs finite.

  The three frames are the programs' runs with the value dropped; the idealization rewrote nothing, so `preserves` is
  trivial.
-/
import proofs.«173721_j87041807221220_1_alg».proof.Defs
import proofs.«173721_j87041807221220_1_alg».proof.Proof.Gen.Kernel
import proofs.«173721_j87041807221220_1_alg».proof.Proof.Gen.Kernel.Skeleton
import proofs.«173721_j87041807221220_1_alg».proof.Proof.Gen.Kernel.Launch
import proofs.«173721_j87041807221220_1_alg».proof.Proof.Gen.Kernel.Points
import proofs.«173721_j87041807221220_1_alg».proof.Proof.Gen.Kernel.Frame
import proofs.«173721_j87041807221220_1_alg».proof.Proof.Gen.KernelIdeal
import proofs.«173721_j87041807221220_1_alg».proof.Proof.Gen.KernelIdeal.Skeleton
import proofs.«173721_j87041807221220_1_alg».proof.Proof.Gen.KernelIdeal.Launch
import proofs.«173721_j87041807221220_1_alg».proof.Proof.Gen.KernelIdeal.Points
import proofs.«173721_j87041807221220_1_alg».proof.Proof.Gen.KernelIdeal.Frame
import proofs.«173721_j87041807221220_1_alg».proof.Proof.Gen.ReferenceIdeal
import proofs.«173721_j87041807221220_1_alg».proof.Proof.Gen.Pre_finite_inputs
import proofs.«173721_j87041807221220_1_alg».proof.Proof.RunRead
import proofs.«173721_j87041807221220_1_alg».proof.Proof.Blocks
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The whole-array program's run, its result forgotten. -/
theorem frame_referenceIdeal : Cert.frame_ReferenceIdeal := fun m ρ _ =>
  (θ_run Cert.ReferenceIdeal.defs _ _).mono (fun _ h c => (h c).2) (Cert.ReferenceIdeal.RunRead.run (F := Ideal) m ρ)

/-- Both programs end with the whole-array function of the arguments in their result arrays: the blocked one band
    by band, the other by its run read back in two stretches (Proof/RunRead.lean); the arguments agree, so the results do. -/
theorem algebraic : Cert.algebraic_KernelIdeal_ReferenceIdeal := by
  intro m ρ m' ρ' _ hagree
  refine ⟨fun c => Cert.Density.whole m c, Cert.Density.kernel_run m ρ, ?_⟩
  refine (θ_run Cert.ReferenceIdeal.defs _ _).mono (fun _ h c => ⟨(h c).1.trans ?_, (h c).2⟩)
    (Cert.ReferenceIdeal.RunRead.run (F := Ideal) m' ρ')
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
